-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024x4096 : Shape := ⟨3, ![2, 1024, 4096]⟩
abbrev S4096x32x16 : Shape := ⟨3, ![4096, 32, 16]⟩
abbrev S4096x32x128 : Shape := ⟨3, ![4096, 32, 128]⟩
abbrev S4096 : Shape := ⟨1, ![4096]⟩
abbrev S_ : Shape := ⟨0, ![]⟩

class Facts : Prop where
  bcast_S_S2x1024x4096 : S_.BroadcastsInDim S2x1024x4096 (![] : Fin 0 → Fin S2x1024x4096.rank)
  reducesTo_S2x1024x4096_S_d0_1_2 : S2x1024x4096.ReducesTo [0, 1, 2] S_
  h_S_ : 0 < S_.numel
  bcast_S_S4096x32x16 : S_.BroadcastsInDim S4096x32x16 (![] : Fin 0 → Fin S4096x32x16.rank)
  reducesTo_S4096x32x16_S_d0_1_2 : S4096x32x16.ReducesTo [0, 1, 2] S_
  bcast_S_S4096 : S_.BroadcastsInDim S4096 (![] : Fin 0 → Fin S4096.rank)
  reducesTo_S4096_S_d0 : S4096.ReducesTo [0] S_
  bcast_S_S4096x32x128 : S_.BroadcastsInDim S4096x32x128 (![] : Fin 0 → Fin S4096x32x128.rank)
  reducesTo_S4096x32x128_S_d0_1_2 : S4096x32x128.ReducesTo [0, 1, 2] S_

variable [Facts]

def fn_part1 {F : FTy → Type} [FloatOps F] (main_arg2 : IVec S4096x32x128 32) (main_v13 : IVec S_ 1) (main_v15 : IVec S4096x32x128 1) (main_c_5 : IVec S_ 32) : IVec S_ 1 :=
  let main_v16 : IVec S4096x32x128 32 := broadcastInDim S4096x32x128 ![] bcast_S_S4096x32x128 main_c_5
  let main_v17 : IVec S4096x32x128 1 := cmpi .slt main_arg2 main_v16
  let main_v18 : IVec S4096x32x128 1 := andi main_v15 main_v17
  let main_c_6 : IVec S_ 1 := constantI S_ 1 1#1
  let main_v19 : IVec S_ 1 := (fun x v => Host.reduce IntOp.andi x v reducesTo_S4096x32x128_S_d0_1_2 h_S_) main_v18 main_c_6
  let main_v20 : IVec S_ 1 := andi main_v13 main_v19
  main_v20

def fn {F : FTy → Type} [FloatOps F] (main_arg0 : FVec F S2x1024x4096 .f32) (main_arg1 : FVec F S4096x32x16 .f32) (main_arg2 : IVec S4096x32x128 32) (main_arg3 : FVec F S4096 .f32) : IVec S_ 1 :=
  let main_v0 : FVec F S2x1024x4096 .f32 := Host.absf main_arg0
  let main_cst : FVec F S_ .f32 := constant S_ .f32 0x7F800000#32
  let main_v1 : FVec F S2x1024x4096 .f32 := broadcastInDim S2x1024x4096 ![] bcast_S_S2x1024x4096 main_cst
  let main_v2 : IVec S2x1024x4096 1 := cmpf .olt main_v0 main_v1
  let main_c : IVec S_ 1 := constantI S_ 1 1#1
  let main_v3 : IVec S_ 1 := (fun x v => Host.reduce IntOp.andi x v reducesTo_S2x1024x4096_S_d0_1_2 h_S_) main_v2 main_c
  let main_v4 : FVec F S4096x32x16 .f32 := Host.absf main_arg1
  let main_cst_0 : FVec F S_ .f32 := constant S_ .f32 0x7F800000#32
  let main_v5 : FVec F S4096x32x16 .f32 := broadcastInDim S4096x32x16 ![] bcast_S_S4096x32x16 main_cst_0
  let main_v6 : IVec S4096x32x16 1 := cmpf .olt main_v4 main_v5
  let main_c_1 : IVec S_ 1 := constantI S_ 1 1#1
  let main_v7 : IVec S_ 1 := (fun x v => Host.reduce IntOp.andi x v reducesTo_S4096x32x16_S_d0_1_2 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_c_4 : IVec S_ 32 := constantI S_ 32 0#32
  let main_v14 : IVec S4096x32x128 32 := broadcastInDim S4096x32x128 ![] bcast_S_S4096x32x128 main_c_4
  let main_v15 : IVec S4096x32x128 1 := cmpi .sge main_arg2 main_v14
  let main_c_5 : IVec S_ 32 := constantI S_ 32 16#32
  fn_part1 (F := F) main_arg2 main_v13 main_v15 main_c_5
-- ==== Kernel.lean ====
abbrev S2x1024x4096 : Shape := ⟨3, ![2, 1024, 4096]⟩
abbrev S4096x32x16 : Shape := ⟨3, ![4096, 32, 16]⟩
abbrev S4096x32x128 : Shape := ⟨3, ![4096, 32, 128]⟩
abbrev S4096 : Shape := ⟨1, ![4096]⟩
abbrev S2048x4096 : Shape := ⟨2, ![2048, 4096]⟩
abbrev S256x4096 : Shape := ⟨2, ![256, 4096]⟩
abbrev S512x32x16 : Shape := ⟨3, ![512, 32, 16]⟩
abbrev S512x32x128 : Shape := ⟨3, ![512, 32, 128]⟩
abbrev S512 : Shape := ⟨1, ![512]⟩
abbrev S256x512 : Shape := ⟨2, ![256, 512]⟩
abbrev S512x4096 : Shape := ⟨2, ![512, 4096]⟩
abbrev S512x32x1 : Shape := ⟨3, ![512, 32, 1]⟩
abbrev S512x32 : Shape := ⟨2, ![512, 32]⟩
abbrev S1x512 : Shape := ⟨2, ![1, 512]⟩

abbrev nBuf : Space → Nat
  | .hbm => 7
  | .vmem => 11
  | .smem => 0
  | _ => 0

abbrev bufTy : (tb : Table) → Fin (tcTables nBuf tb) → BufTy
  | .hbm, ⟨0, _⟩ => ⟨S2x1024x4096, .f32⟩
  | .hbm, ⟨1, _⟩ => ⟨S4096x32x16, .f32⟩
  | .hbm, ⟨2, _⟩ => ⟨S4096x32x128, .i32⟩
  | .hbm, ⟨3, _⟩ => ⟨S4096, .f32⟩
  | .hbm, ⟨4, _⟩ => ⟨S2048x4096, .f32⟩
  | .hbm, ⟨5, _⟩ => ⟨S2048x4096, .f32⟩
  | .hbm, ⟨6, _⟩ => ⟨S2x1024x4096, .f32⟩
  | .local _ .vmem, ⟨0, _⟩ => ⟨S256x4096, .f32⟩
  | .local _ .vmem, ⟨1, _⟩ => ⟨S256x4096, .f32⟩
  | .local _ .vmem, ⟨2, _⟩ => ⟨S512x32x16, .f32⟩
  | .local _ .vmem, ⟨3, _⟩ => ⟨S512x32x16, .f32⟩
  | .local _ .vmem, ⟨4, _⟩ => ⟨S512x32x128, .i32⟩
  | .local _ .vmem, ⟨5, _⟩ => ⟨S512x32x128, .i32⟩
  | .local _ .vmem, ⟨6, _⟩ => ⟨S512, .f32⟩
  | .local _ .vmem, ⟨7, _⟩ => ⟨S512, .f32⟩
  | .local _ .vmem, ⟨8, _⟩ => ⟨S256x512, .f32⟩
  | .local _ .vmem, ⟨9, _⟩ => ⟨S256x512, .f32⟩
  | .local _ .vmem, ⟨10, _⟩ => ⟨S512x4096, .bf16⟩
  | _, _ => ⟨S2x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x32x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x32x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S2x1024x4096_S2048x4096 : S2x1024x4096.ShapeCasts S2048x4096
  inb_S512x32x128_S512x32x128_0_0_0 : ∀ a, (![0, 0, 0] : Fin 3 → Nat) a + S512x32x128.size a ≤ S512x32x128.size a
  h_S512x32x128 : 0 < S512x32x128.numel
  inb_S512x32x16_S512x32x16_0_0_0 : ∀ a, (![0, 0, 0] : Fin 3 → Nat) a + S512x32x16.size a ≤ S512x32x16.size a
  h_S512x32x16 : 0 < S512x32x16.numel
  slices_S512x32x16_o0_0_0_S512x32x1 : S512x32x16.Slices ![0, 0, 0] S512x32x1
  shapeCasts_S512x32x1_S512x32 : S512x32x1.ShapeCasts S512x32
  shapeCasts_S512x32_S512x32x1 : S512x32.ShapeCasts S512x32x1
  shapeCasts_S512x32x1_S512x32x1 : S512x32x1.ShapeCasts S512x32x1
  broadcasts_S512x32x1_S512x32x128 : S512x32x1.Broadcasts S512x32x128
  slices_S512x32x16_o0_0_1_S512x32x1 : S512x32x16.Slices ![0, 0, 1] S512x32x1
  slices_S512x32x16_o0_0_2_S512x32x1 : S512x32x16.Slices ![0, 0, 2] S512x32x1
  slices_S512x32x16_o0_0_3_S512x32x1 : S512x32x16.Slices ![0, 0, 3] S512x32x1
  slices_S512x32x16_o0_0_4_S512x32x1 : S512x32x16.Slices ![0, 0, 4] S512x32x1
  slices_S512x32x16_o0_0_5_S512x32x1 : S512x32x16.Slices ![0, 0, 5] S512x32x1
  slices_S512x32x16_o0_0_6_S512x32x1 : S512x32x16.Slices ![0, 0, 6] S512x32x1
  slices_S512x32x16_o0_0_7_S512x32x1 : S512x32x16.Slices ![0, 0, 7] S512x32x1
  slices_S512x32x16_o0_0_8_S512x32x1 : S512x32x16.Slices ![0, 0, 8] S512x32x1
  slices_S512x32x16_o0_0_9_S512x32x1 : S512x32x16.Slices ![0, 0, 9] S512x32x1
  slices_S512x32x16_o0_0_10_S512x32x1 : S512x32x16.Slices ![0, 0, 10] S512x32x1
  slices_S512x32x16_o0_0_11_S512x32x1 : S512x32x16.Slices ![0, 0, 11] S512x32x1
  slices_S512x32x16_o0_0_12_S512x32x1 : S512x32x16.Slices ![0, 0, 12] S512x32x1
  slices_S512x32x16_o0_0_13_S512x32x1 : S512x32x16.Slices ![0, 0, 13] S512x32x1
  slices_S512x32x16_o0_0_14_S512x32x1 : S512x32x16.Slices ![0, 0, 14] S512x32x1
  slices_S512x32x16_o0_0_15_S512x32x1 : S512x32x16.Slices ![0, 0, 15] S512x32x1
  shapeCasts_S512x32x128_S512x4096 : S512x32x128.ShapeCasts S512x4096
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  packedbf16_S512x4096_S512x4096_0_0 : (Rect.unit (s := S512x4096) ![0, 0] S512x4096.size inb_S512x4096_S512x4096_0_0).PackedRows (EltTy.packing .bf16)
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S512_S512_0 : ∀ a, (![0] : Fin 1 → Nat) a + S512.size a ≤ S512.size a
  h_S512 : 0 < S512.numel
  shapeCasts_S512_S1x512 : S512.ShapeCasts S1x512
  broadcasts_S1x512_S256x512 : S1x512.Broadcasts S256x512
  inb_S256x512_S256x512_0_0 : ∀ a, (![0, 0] : Fin 2 → Nat) a + S256x512.size a ≤ S256x512.size a
  h_S256x512 : 0 < S256x512.numel
  shapeCasts_S2048x4096_S2x1024x4096 : S2048x4096.ShapeCasts S2x1024x4096
  dot_S256x4096_S512x4096_S256x512_1_1_0_0_n_n_wf : DotDims.WF S256x4096 S512x4096 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S2048x4096.size a
  hwx0_0 : ∀ i : grid0.Coords, EltTy.bits .f32 = 32 ∨ (Rect.block (s := S2048x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x32x16.size a ≤ S4096x32x16.size a
  hwx0_1 : ∀ i : grid0.Coords, EltTy.bits .f32 = 32 ∨ (Rect.block (s := S4096x32x16) S512x32x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x32x128.size a ≤ S4096x32x128.size a
  hwx0_2 : ∀ i : grid0.Coords, EltTy.bits .i32 = 32 ∨ (Rect.block (s := S4096x32x128) S512x32x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S4096.size a
  hwx0_3 : ∀ i : grid0.Coords, EltTy.bits .f32 = 32 ∨ (Rect.block (s := S4096) S512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S2048x4096.size a
  hwx0_4 : ∀ i : grid0.Coords, EltTy.bits .f32 = 32 ∨ (Rect.block (s := S2048x4096) S256x512.size (cc0_transform_4 i) (hinb0_4 i)).WholeWords (EltTy.packing .f32)

variable [Facts₀]

def dot_S256x4096_S512x4096_S256x512_1_1_0_0_n_n : DotDims S256x4096 S512x4096 S256x512 where
  lhsContracting := [1]
  rhsContracting := [1]
  lhsNonContracting := [0]
  rhsNonContracting := [0]
  lhsBatch := []
  rhsBatch := []
  wf := dot_S256x4096_S512x4096_S256x512_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x32x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x32x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x1024x4096 : Shape := ⟨3, ![2, 1024, 4096]⟩
abbrev S4096x32x16 : Shape := ⟨3, ![4096, 32, 16]⟩
abbrev S4096x32x128 : Shape := ⟨3, ![4096, 32, 128]⟩
abbrev S4096 : Shape := ⟨1, ![4096]⟩
abbrev S_ : Shape := ⟨0, ![]⟩
abbrev S4096x32x128x1 : Shape := ⟨4, ![4096, 32, 128, 1]⟩
abbrev S1 : Shape := ⟨1, ![1]⟩
abbrev S1x1x1x1 : Shape := ⟨4, ![1, 1, 1, 1]⟩
abbrev S4096x4096 : Shape := ⟨2, ![4096, 4096]⟩
abbrev S1x1x4096 : Shape := ⟨3, ![1, 1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S2x1024x4096, .f32⟩
  | .hbm, ⟨1, _⟩ => ⟨S4096x32x16, .f32⟩
  | .hbm, ⟨2, _⟩ => ⟨S4096x32x128, .i32⟩
  | .hbm, ⟨3, _⟩ => ⟨S4096, .f32⟩
  | .hbm, ⟨4, _⟩ => ⟨S_, .i32⟩
  | .hbm, ⟨5, _⟩ => ⟨S4096x32x128, .i32⟩
  | .hbm, ⟨6, _⟩ => ⟨S4096x32x128, .i1⟩
  | .hbm, ⟨7, _⟩ => ⟨S_, .i32⟩
  | .hbm, ⟨8, _⟩ => ⟨S4096x32x128, .i32⟩
  | .hbm, ⟨9, _⟩ => ⟨S4096x32x128, .i32⟩
  | .hbm, ⟨10, _⟩ => ⟨S4096x32x128, .i32⟩
  | .hbm, ⟨11, _⟩ => ⟨S4096x32x128x1, .i32⟩
  | .hbm, ⟨12, _⟩ => ⟨S1, .i32⟩
  | .hbm, ⟨13, _⟩ => ⟨S_, .i32⟩
  | .hbm, ⟨14, _⟩ => ⟨S4096x32x128x1, .i32⟩
  | .hbm, ⟨15, _⟩ => ⟨S4096x32x128x1, .i1⟩
  | .hbm, ⟨16, _⟩ => ⟨S1x1x1x1, .i32⟩
  | .hbm, ⟨17, _⟩ => ⟨S4096x32x128x1, .i32⟩
  | .hbm, ⟨18, _⟩ => ⟨S4096x32x128x1, .i1⟩
  | .hbm, ⟨19, _⟩ => ⟨S4096x32x128x1, .i1⟩
  | .hbm, ⟨20, _⟩ => ⟨S_, .i1⟩
  | .hbm, ⟨21, _⟩ => ⟨S4096x32x128, .i1⟩
  | .hbm, ⟨22, _⟩ => ⟨S4096x32x128, .f32⟩
  | .hbm, ⟨23, _⟩ => ⟨S_, .f32⟩
  | .hbm, ⟨24, _⟩ => ⟨S4096x32x128, .f32⟩
  | .hbm, ⟨25, _⟩ => ⟨S4096x32x128, .f32⟩
  | .hbm, ⟨26, _⟩ => ⟨S4096x4096, .f32⟩
  | .hbm, ⟨27, _⟩ => ⟨S2x1024x4096, .f32⟩
  | .hbm, ⟨28, _⟩ => ⟨S1x1x4096, .f32⟩
  | .hbm, ⟨29, _⟩ => ⟨S2x1024x4096, .f32⟩
  | .hbm, ⟨30, _⟩ => ⟨S2x1024x4096, .f32⟩
  | _, _ => ⟨S2x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩

abbrev nD : Nat := 1
abbrev τ : Topo := Topo.v7x

variable {F : FTy → Type} [FloatOps F]

class Facts₀ : Prop where
  bcast_S_S4096x32x128 : S_.BroadcastsInDim S4096x32x128 (![] : Fin 0 → Fin S4096x32x128.rank)
  shapeCasts_S4096x32x128_S4096x32x128x1 : S4096x32x128.ShapeCasts S4096x32x128x1
  bcast_S_S4096x32x128x1 : S_.BroadcastsInDim S4096x32x128x1 (![] : Fin 0 → Fin S4096x32x128x1.rank)
  bcast_S1_S1x1x1x1_3 : S1.BroadcastsInDim S1x1x1x1 (![3] : Fin 1 → Fin S1x1x1x1.rank)
  bcast_S1x1x1x1_S4096x32x128x1_0_1_2_3 : S1x1x1x1.BroadcastsInDim S4096x32x128x1 (![0, 1, 2, 3] : Fin 4 → Fin S4096x32x128x1.rank)
  reducesTo_S4096x32x128x1_S4096x32x128_d3 : S4096x32x128x1.ReducesTo [3] S4096x32x128
  h_S_ : 0 < S_.numel
  shapeCasts_S4096x32x128_S4096x4096 : S4096x32x128.ShapeCasts S4096x4096
  bcast_S4096_S1x1x4096_2 : S4096.BroadcastsInDim S1x1x4096 (![2] : Fin 1 → Fin S1x1x4096.rank)
  bcast_S1x1x4096_S2x1024x4096_0_1_2 : S1x1x4096.BroadcastsInDim S2x1024x4096 (![0, 1, 2] : Fin 3 → Fin S2x1024x4096.rank)
  gather_S4096x32x16_S4096x32x128x1_S4096x32x128_n_2_01_01_2_3_111_wf : GatherDims.WF S4096x32x16 S4096x32x128x1 S4096x32x128 [] [2] [0, 1] [2] [0, 1] 3 ![1, 1, 1]
  dot_S2x1024x4096_S4096x4096_S2x1024x4096_2_1_01_0_n_n_wf : DotDims.WF S2x1024x4096 S4096x4096 S2x1024x4096 [2] [1] [0, 1] [0] [] []

variable [Facts₀]

def gather_S4096x32x16_S4096x32x128x1_S4096x32x128_n_2_01_01_2_3_111 : GatherDims S4096x32x16 S4096x32x128x1 S4096x32x128 where
  offsetDims := []
  collapsedSliceDims := [2]
  operandBatchingDims := [0, 1]
  startIndicesBatchingDims := [0, 1]
  startIndexMap := [2]
  indexVectorDim := 3
  sliceSizes := ![1, 1, 1]
  wf := gather_S4096x32x16_S4096x32x128x1_S4096x32x128_n_2_01_01_2_3_111_wf
def dot_S2x1024x4096_S4096x4096_S2x1024x4096_2_1_01_0_n_n : DotDims S2x1024x4096 S4096x4096 S2x1024x4096 where
  lhsContracting := [2]
  rhsContracting := [1]
  lhsNonContracting := [0, 1]
  rhsNonContracting := [0]
  lhsBatch := []
  rhsBatch := []
  wf := dot_S2x1024x4096_S4096x4096_S2x1024x4096_2_1_01_0_n_n_wf

class Facts : Prop extends Facts₀ where

variable [Facts]
-- ==== Proof.Spec.lean ====
/-
  The common value of the two programs, as one function of the four argument arrays.

  A weight matrix of 4096 rows and 4096 columns is stored in compressed form: row `o` is cut into 32 groups of 128
  columns; group `g` of row `o` has a codebook of 16 real entries, and each column of the group holds a CODE, the
  position of its entry in that codebook. The decompressed weight at row `o` and column `k` is therefore the codebook
  entry of group `k / 128` of row `o` at the code stored for column `k % 128` of that group (`weight`).
  The result is the affine map `x ↦ x · Wᵀ + bias` applied to every row of `x`: at batch `b`, position `s` and output
  feature `o` it is the sum over the input features `k` of `x[b, s, k] · W[o, k]`, plus `bias[o]` (`linear`).

  Codes are meant to be codebook positions, `0 ≤ code < 16` (`CodesOk`); `weight` is total all the same, reading
  position `min code 15`, and the two programs are compared where `CodesOk` holds.
-/
import Idealize.ShloMosaic.PureOps.Ideal
import Idealize.ShloMosaic.Lib.ValueIdx

noncomputable section

namespace Cert.Dequant

open Idealize.ShloMosaic Idealize.ShloMosaic.ValueIdx

/-- The activations `x`: 2 batches of 1024 positions of 4096 input features (and the result's shape too). -/
abbrev SAct : Shape := ⟨3, ![2, 1024, 4096]⟩
/-- The codebooks: per weight row and group, 16 entries. -/
abbrev SBook : Shape := ⟨3, ![4096, 32, 16]⟩
/-- The codes: per weight row, group and column inside the group, one code. -/
abbrev SCode : Shape := ⟨3, ![4096, 32, 128]⟩
/-- The bias: one entry per output feature. -/
abbrev SBias : Shape := ⟨1, ![4096]⟩

/-- Every code is a codebook position. -/
def CodesOk (codes : IVec SCode 32) : Prop := ∀ i : SCode.Idx, (codes i).toNat < 16

/-- The group a column of the weight matrix lies in, -/
abbrev grp (k : Fin 4096) : Fin 32 := ⟨k.val / 128, by have := k.isLt; omega⟩
/-- and its position inside that group. -/
abbrev pos (k : Fin 4096) : Fin 128 := ⟨k.val % 128, Nat.mod_lt _ (by decide)⟩

/-- The decompressed weight at row `o`, column `k`: the entry of the row's codebook for the column's group at the
    column's code (read as position `min code 15`, which is the code itself when `CodesOk`). -/
def weight (book : FVec Ideal SBook .f32) (codes : IVec SCode 32) (o k : Fin 4096) : EReal :=
  book (ix3 o (grp k) ⟨min (codes (ix3 o (grp k) (pos k))).toNat 15, by omega⟩)

/-- The affine map on every row of `x`: `∑ₖ x[b, s, k] · W[o, k] + bias[o]`. -/
def linear (x : FVec Ideal SAct .f32) (book : FVec Ideal SBook .f32) (codes : IVec SCode 32)
    (bias : FVec Ideal SBias .f32) : FVec Ideal SAct .f32 :=
  fun i => (∑ k : Fin 4096, x (ix3 (i 0) (i 1) k) * weight book codes (i 2) k) + bias (ix1 (i 2))

theorem linear_apply (x : FVec Ideal SAct .f32) (book : FVec Ideal SBook .f32) (codes : IVec SCode 32)
    (bias : FVec Ideal SBias .f32) (b : Fin 2) (s : Fin 1024) (o : Fin 4096) :
    linear x book codes bias (ix3 b s o)
      = (∑ k : Fin 4096, x (ix3 b s k) * weight book codes o k) + bias (ix1 o) := rfl

/-- Where the code is a codebook position, the weight reads the codebook at that very position. -/
theorem weight_of_lt (book : FVec Ideal SBook .f32) (codes : IVec SCode 32) (o k : Fin 4096)
    (h : (codes (ix3 o (grp k) (pos k))).toNat < 16) :
    weight book codes o k = book (ix3 o (grp k) ⟨(codes (ix3 o (grp k) (pos k))).toNat, h⟩) := by
  unfold weight
  congr 2
  exact Fin.ext (Nat.min_eq_left (by omega))

end Cert.Dequant

end
-- ==== Proof.Pick.lean ====
/-
  A lookup table spelt as a chain of selections. Starting from a default `z`, the entries `v 0, v 1, …, v 15` are
  offered one after the other, entry `k` replacing what is there exactly when the code equals `k`. The code equals at
  most one `k`, so when it is a table position (`code < 16`) the chain ends holding `v code`: the sixteen comparisons
  are a table lookup. (For any other code nothing is ever selected and the default survives; that case is not needed.)
-/
import Idealize.ShloMosaic.PureOps
import Mathlib.Tactic.IntervalCases

namespace Cert.Dequant

open Idealize.ShloMosaic

/-- One link of the chain: entry `a` where the code is `k`, else what was there before. -/
abbrev link {α : Type} (c k : BitVec 32) (a acc : α) : α := Scalar.select (IntOp.cmpi .eq c k) a acc

/-- The whole chain of sixteen links over a default. -/
abbrev chain16 {α : Type} (c : BitVec 32) (v : Fin 16 → α) (z : α) : α :=
  link c 15#32 (v 15) (link c 14#32 (v 14) (link c 13#32 (v 13) (link c 12#32 (v 12)
  (link c 11#32 (v 11) (link c 10#32 (v 10) (link c 9#32 (v 9) (link c 8#32 (v 8)
  (link c 7#32 (v 7) (link c 6#32 (v 6) (link c 5#32 (v 5) (link c 4#32 (v 4)
  (link c 3#32 (v 3) (link c 2#32 (v 2) (link c 1#32 (v 1) (link c 0#32 (v 0) z)))))))))))))))

/-- A code that is a table position selects its own entry and no other. -/
theorem chain16_of_lt {α : Type} (c : BitVec 32) (hc : c.toNat < 16) (v : Fin 16 → α) (z : α) :
    chain16 c v z = v ⟨c.toNat, hc⟩ := by
  obtain ⟨n, hn, rfl⟩ : ∃ n, n < 16 ∧ c = BitVec.ofNat 32 n := ⟨c.toNat, hc,
    BitVec.eq_of_toNat_eq (by rw [BitVec.toNat_ofNat]; exact (Nat.mod_eq_of_lt c.isLt).symm)⟩
  interval_cases n <;> rfl

end Cert.Dequant
-- ==== Proof.WeightTile.lean ====
/-
  What the kernel's decompression step computes, entry by entry.

  At the first point of each run of eight grid points the kernel turns its block of codes (512 weight rows × 32 groups ×
  128 columns) and its block of codebooks (512 rows × 32 groups × 16 entries) into a 512 × 4096 tile of weights: for each
  `k = 0 … 15` it takes entry `k` of every codebook (a slice of width one, spread along the group's 128 columns) and keeps
  it wherever the code equals `k`, starting from zero. Read at row `r` and column `g · 128 + s`, the tile is therefore
  the sixteen-link chain of `Pick.lean` over the code at `(r, g, s)` and the codebook of `(r, g)` — and, where the code is
  a codebook position, that codebook's entry at the code.
-/
import proofs.«429564_j50165218017637_1_alg».proof.Proof.Gen.KernelIdeal.Skeleton
import proofs.«429564_j50165218017637_1_alg».proof.Proof.Pick
import Idealize.ShloMosaic.Lib.ValueIdx
import Idealize.ShloMosaic.Lib.Pipeline.Value

noncomputable section

namespace Cert.Dequant.Kernel

open Cert.KernelIdeal Cert.KernelIdeal.Gen Idealize.ShloMosaic Idealize.ShloMosaic.ValueIdx

/-- Entry `k` of every codebook, spread along its group's columns: at `(r, g, s)` it is the codebook block at `(r, g, k)`.
    (The slice of width one is cast to a matrix and back, which changes nothing, and broadcast along the last axis.) -/
theorem column_apply {α : Type} (book : S512x32x16.Idx → α) (off : Fin 3 → Nat) (k : Fin 16) (hoff : off = ![0, 0, k.val])
    (h1 : S512x32x16.Slices off S512x32x1) (h2 : S512x32x1.ShapeCasts S512x32) (h3 : S512x32.ShapeCasts S512x32x1)
    (h4 : S512x32x1.ShapeCasts S512x32x1) (h5 : S512x32x1.Broadcasts S512x32x128) (r : Fin 512) (g : Fin 32) (s : Fin 128) :
    broadcastTo S512x32x128 (shapeCast S512x32x1 (shapeCast S512x32x1 (shapeCast S512x32
      (extractStridedSlice S512x32x1 off book h1) h2) h3) h4) h5 (ix3 r g s) = book (ix3 r g k) := by
  subst hoff
  rw [shapeCast_self, shapeCast_shapeCast]
  refine (broadcastTo_apply _ h5 (ix3 r g s) (ix3 r g (0 : Fin 1)) (fun a => ?_)).trans ?_
  · match a with
    | ⟨0, _⟩ => show r.val = if (512 : Nat) = 1 then 0 else r.val; rw [if_neg (by decide)]
    | ⟨1, _⟩ => show g.val = if (32 : Nat) = 1 then 0 else g.val; rw [if_neg (by decide)]
    | ⟨2, _⟩ => show 0 = if (1 : Nat) = 1 then 0 else s.val; rw [if_pos rfl]
  · refine extractStridedSlice_apply _ book h1 (ix3 r g (0 : Fin 1)) (ix3 r g k) (fun a => ?_)
    match a with
    | ⟨0, _⟩ => show r.val = 0 + r.val; omega
    | ⟨1, _⟩ => show g.val = 0 + g.val; omega
    | ⟨2, _⟩ => show k.val = k.val + 0; omega

variable {F : FTy → Type} [FloatOps F]

/-- The tile the decompression step stores: the body's payloads composed, as a function of the two blocks it loads. -/
def tile (codes : Vec F S512x32x128 .i32) (book : Vec F S512x32x16 .f32) : FVec F S512x4096 .bf16 :=
  k0_pay1 codes book (k0_pay6 codes book (k0_pay3 codes book) (k0_pay4 book) k0_pay5) (k0_pay7 book)

/-- A comparison of integer vectors at an index compares the entries. -/
theorem cmpi_at {s : Shape} {w : Nat} (p : CmpIPredicate) (a b : IVec s w) (i : s.Idx) :
    cmpi p a b i = IntOp.cmpi p (a i) (b i) := rfl

/-- The default the chain starts from: the word of `+0.0`. -/
abbrev zero : Ideal .f32 := Scalar.ofBits (F := Ideal) .f32 0x00000000#32

/-- THE TILE AT AN ENTRY: row `r`, column `g · 128 + s` of the tile is the chain of sixteen selections over the code at
    `(r, g, s)` and the sixteen entries of the codebook of `(r, g)`. -/
theorem tile_apply (codes : Vec Ideal S512x32x128 .i32) (book : Vec Ideal S512x32x16 .f32) (r : Fin 512) (g : Fin 32)
    (s : Fin 128) (j : Fin 4096) (hj : j.val = g.val * 128 + s.val) :
    tile (F := Ideal) codes book (ix2 r j) = chain16 (codes (ix3 r g s)) (fun k => book (ix3 r g k)) zero := by
  unfold tile k0_pay1 k0_pay6 k0_pay3 k0_pay4 k0_pay5 k0_pay7
  dsimp only
  rw [shapeCast_self, truncf_apply]
  refine (shapeCast_apply _ shapeCasts_S512x32x128_S512x4096 (ix2 r j) (ix3 r g s) ?_).trans ?_
  · rewrite [Shape.rowMajor_val_three, Shape.rowMajor_val_two]
    have hg : g.val < 32 := g.isLt
    have hs : s.val < 128 := s.isLt
    show (r.val * 32 + g.val) * 128 + s.val = r.val * 4096 + j.val
    omega
  simp only [select_apply, cmpi_at, broadcast_apply]
  rw [column_apply book ![0, 0, 15] 15 rfl,
    column_apply book ![0, 0, 14] 14 rfl,
    column_apply book ![0, 0, 13] 13 rfl,
    column_apply book ![0, 0, 12] 12 rfl,
    column_apply book ![0, 0, 11] 11 rfl,
    column_apply book ![0, 0, 10] 10 rfl,
    column_apply book ![0, 0, 9] 9 rfl,
    column_apply book ![0, 0, 8] 8 rfl,
    column_apply book ![0, 0, 7] 7 rfl,
    column_apply book ![0, 0, 6] 6 rfl,
    column_apply book ![0, 0, 5] 5 rfl,
    column_apply book ![0, 0, 4] 4 rfl,
    column_apply book ![0, 0, 3] 3 rfl,
    column_apply book ![0, 0, 2] 2 rfl,
    column_apply book ![0, 0, 1] 1 rfl,
    column_apply book ![0, 0, 0] 0 rfl]

/-- Where the code is a codebook position, the tile holds that codebook's entry at the code. -/
theorem tile_of_lt (codes : Vec Ideal S512x32x128 .i32) (book : Vec Ideal S512x32x16 .f32) (r : Fin 512) (g : Fin 32)
    (s : Fin 128) (j : Fin 4096) (hj : j.val = g.val * 128 + s.val) (hc : (codes (ix3 r g s)).toNat < 16) :
    tile (F := Ideal) codes book (ix2 r j) = book (ix3 r g ⟨(codes (ix3 r g s)).toNat, hc⟩) := by
  rw [tile_apply codes book r g s j hj]
  exact chain16_of_lt (codes (ix3 r g s)) hc (fun k => book (ix3 r g k)) zero

end Cert.Dequant.Kernel

end
-- ==== Proof.OutTile.lean ====
/-
  What the kernel's product step computes, entry by entry.

  At every grid point the kernel multiplies its block of 256 activation rows (each of 4096 input features) with the
  512 × 4096 weight tile it carries, contracting the input features, into a zero accumulator, and adds the bias block
  along the rows. At row `p` and column `q` of the 256 × 512 result that is the sum over the input features `k` of
  `x[p, k] · w[q, k]`, plus `bias[q]`. (The activations are narrowed to a shorter float format on the way in, which on
  the extended reals changes nothing.)
-/
import proofs.«429564_j50165218017637_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Dequant.Kernel

open Cert.KernelIdeal Cert.KernelIdeal.Gen Idealize.ShloMosaic Idealize.ShloMosaic.ValueIdx

/-- The left operand's row is the result's row; -/
theorem lhs_row (i : S256x512.Idx) (q : dot_S256x4096_S512x4096_S256x512_1_1_0_0_n_n.contr.Idx) :
    (dot_S256x4096_S512x4096_S256x512_1_1_0_0_n_n.lhsIdx i q 0).val = (i 0).val := by
  unfold DotDims.lhsIdx
  rw [dif_neg (show ¬(0 : Fin S256x4096.rank) ∈ dot_S256x4096_S512x4096_S256x512_1_1_0_0_n_n.lhsBatch by decide), dif_pos (show (0 : Fin S256x4096.rank) ∈ dot_S256x4096_S512x4096_S256x512_1_1_0_0_n_n.lhsNonContracting by decide)]
  rfl
/-- its column is the contracted feature. -/
theorem lhs_col (i : S256x512.Idx) (q : dot_S256x4096_S512x4096_S256x512_1_1_0_0_n_n.contr.Idx) :
    (dot_S256x4096_S512x4096_S256x512_1_1_0_0_n_n.lhsIdx i q 1).val = (q ⟨0, by decide⟩).val :=
  dot_S256x4096_S512x4096_S256x512_1_1_0_0_n_n.lhsIdx_val_of_single rfl i q
/-- The right operand's row is the result's column; -/
theorem rhs_row (i : S256x512.Idx) (q : dot_S256x4096_S512x4096_S256x512_1_1_0_0_n_n.contr.Idx) :
    (dot_S256x4096_S512x4096_S256x512_1_1_0_0_n_n.rhsIdx i q 0).val = (i 1).val := by
  unfold DotDims.rhsIdx
  rw [dif_neg (show ¬(0 : Fin S512x4096.rank) ∈ dot_S256x4096_S512x4096_S256x512_1_1_0_0_n_n.rhsBatch by decide), dif_pos (show (0 : Fin S512x4096.rank) ∈ dot_S256x4096_S512x4096_S256x512_1_1_0_0_n_n.rhsNonContracting by decide)]
  rfl
/-- its column is the contracted feature. -/
theorem rhs_col (i : S256x512.Idx) (q : dot_S256x4096_S512x4096_S256x512_1_1_0_0_n_n.contr.Idx) :
    (dot_S256x4096_S512x4096_S256x512_1_1_0_0_n_n.rhsIdx i q 1).val = (q ⟨0, by decide⟩).val :=
  dot_S256x4096_S512x4096_S256x512_1_1_0_0_n_n.rhsIdx_val_of_single rfl i q

/-- THE PRODUCT STEP AT AN ENTRY: `∑ₖ x[p, k] · w[q, k] + bias[q]`. -/
theorem out_apply (x : Vec Ideal S256x4096 .f32) (w : Vec Ideal S512x4096 .bf16) (bias : Vec Ideal S512 .f32)
    (p : Fin 256) (q : Fin 512) :
    k0_pay2 (F := Ideal) x w bias (ix2 p q) = (∑ k : Fin 4096, x (ix2 p k) * w (ix2 q k)) + bias (ix1 q) := by
  unfold k0_pay2
  rw [addf_apply]
  congr 1
  · simp only [matmul]
    rw [Ideal.matmul_constant_zero_apply, ← Equiv.sum_comp (contrEquiv1 dot_S256x4096_S512x4096_S256x512_1_1_0_0_n_n 4096 rfl rfl).symm]
    refine Finset.sum_congr rfl fun k _ => ?_
    have hk := contrEquiv1_symm_val dot_S256x4096_S512x4096_S256x512_1_1_0_0_n_n 4096 rfl rfl k
    have el : dot_S256x4096_S512x4096_S256x512_1_1_0_0_n_n.lhsIdx (ix2 p q) ((contrEquiv1 dot_S256x4096_S512x4096_S256x512_1_1_0_0_n_n 4096 rfl rfl).symm k) = ix2 p k := funext fun a => Fin.ext (by
      match a with
      | ⟨0, _⟩ => exact lhs_row _ _
      | ⟨1, _⟩ => exact (lhs_col _ _).trans hk)
    have er : dot_S256x4096_S512x4096_S256x512_1_1_0_0_n_n.rhsIdx (ix2 p q) ((contrEquiv1 dot_S256x4096_S512x4096_S256x512_1_1_0_0_n_n 4096 rfl rfl).symm k) = ix2 q k := funext fun a => Fin.ext (by
      match a with
      | ⟨0, _⟩ => exact rhs_row _ _
      | ⟨1, _⟩ => exact (rhs_col _ _).trans hk)
    rw [el, er, truncf_apply, shapeCast_self]
  · rw [broadcastTo_1b_ab_apply, shapeCast_a_1a_apply]

end Cert.Dequant.Kernel

end
-- ==== Proof.Pieces.lean ====
/-
  What one run of the kernel body leaves behind, as values.

  The body has two cases. At the first point of a run of eight (the grid's second coordinate is zero) it decompresses
  the weights into the buffer it keeps, then multiplies; at the other points it only multiplies, reading the kept buffer.
  The generated frame states what each case leaves in the kept buffer and in the output block as lists of written pieces;
  here those pieces are read back as plain functions of the blocks the body loads: each buffer is written by ONE store
  covering it, so its contents are that store's payload, the payload's loads reading their blocks whole.
-/
import proofs.«429564_j50165218017637_1_alg».proof.Proof.Gen.KernelIdeal.Frame
import proofs.«429564_j50165218017637_1_alg».proof.Proof.WeightTile
import Idealize.ShloMosaic.Lib.Pipeline.Value
import Idealize.ShloMosaic.Lib.Tactic

set_option maxRecDepth 16384

noncomputable section

namespace Cert.Dequant.Kernel

open Cert.KernelIdeal Cert.KernelIdeal.Gen Idealize.ShloMosaic Idealize.ShloMosaic.TcCoe Idealize.SL.Sem
open Idealize.ShloMosaic.Tactic

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- At a run's first point the kept buffer ends holding the tile decompressed from the point's code and codebook blocks:
    its one covering store's payload, whose loads read those two blocks whole. -/
theorem scratch_A (c : Dev nD) (i : grid0.Coords) (arg2 : Memref sig .tc .vmem S256x4096 .f32) (harg2 : arg2.IsWhole) (arg3 : Memref sig .tc .vmem S512x32x16 .f32) (harg3 : arg3.IsWhole) (arg4 : Memref sig .tc .vmem S512x32x128 .i32) (harg4 : arg4.IsWhole) (arg5 : Memref sig .tc .vmem S512 .f32) (harg5 : arg5.IsWhole) (arg6 : Memref sig .tc .vmem S256x512 .f32) (harg6 : arg6.IsWhole) (arg7 : Memref sig .tc .vmem S512x4096 .bf16) (harg7 : arg7.IsWhole) (hc0 : cond0_0 i)
    (x0 : Vec F S256x4096 .f32) (x1 : Vec F S512x32x16 .f32) (x2 : Vec F S512x32x128 .i32) (x3 : Vec F S512 .f32) :
    sout0_A_0 c i arg2 harg2 arg3 harg3 arg4 harg4 arg5 harg5 arg6 harg6 arg7 harg7 hc0 x0 x1 x2 x3 = tile x2 x1 := by
  unfold tile sout0_A_0
  rw [View.read_writes_eq_canon _ _ _ (scover0_A_0 c i arg2 harg2 arg3 harg3 arg4 harg4 arg5 harg5 arg6 harg6 arg7 harg7 hc0 x0 x1 x2 x3)]
  unfold kernelRun0_A
  dsimp only
  sl_unfold_words
  rw [View.canon_unit_zero hz2]
  simp only [View.readAt_eq_ld, harg3.read_unread, harg4.read_unread, View.ld_unit_zero (S := S512x32x16) hz3,
    View.ld_unit_zero (S := S512x32x128) hz3]

/-- At a run's first point the output block is the product step of the activation block, the tile just stored (read
    back from the kept buffer) and the bias block. -/
theorem out_A (c : Dev nD) (i : grid0.Coords) (arg2 : Memref sig .tc .vmem S256x4096 .f32) (harg2 : arg2.IsWhole) (arg3 : Memref sig .tc .vmem S512x32x16 .f32) (harg3 : arg3.IsWhole) (arg4 : Memref sig .tc .vmem S512x32x128 .i32) (harg4 : arg4.IsWhole) (arg5 : Memref sig .tc .vmem S512 .f32) (harg5 : arg5.IsWhole) (arg6 : Memref sig .tc .vmem S256x512 .f32) (harg6 : arg6.IsWhole) (arg7 : Memref sig .tc .vmem S512x4096 .bf16) (harg7 : arg7.IsWhole) (hc0 : cond0_0 i)
    (x0 : Vec F S256x4096 .f32) (x1 : Vec F S512x32x16 .f32) (x2 : Vec F S512x32x128 .i32) (x3 : Vec F S512 .f32) :
    out0_A_4 c i arg2 harg2 arg3 harg3 arg4 harg4 arg5 harg5 arg6 harg6 arg7 harg7 hc0 x0 x1 x2 x3 = k0_pay2 x0 (tile x2 x1) x3 := by
  unfold tile out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_unit_zero hz2]
  simp only [View.readAt_eq_ld, harg2.read_unread, harg3.read_unread, harg4.read_unread, harg5.read_unread,
    View.ld_unit_zero (S := S256x4096) hz2, View.ld_unit_zero (S := S512x32x16) hz3, View.ld_unit_zero (S := S512x32x128) hz3,
    View.ld_unit_zero (S := S512) hz1, View.readCov_unit_zero (S := S512x4096) _ hz2]

/-- At every other point the output block is the product step of the activation block, the kept buffer as the point
    before left it, and the bias block. -/
theorem out_B (c : Dev nD) (i : grid0.Coords) (arg2 : Memref sig .tc .vmem S256x4096 .f32) (harg2 : arg2.IsWhole) (arg3 : Memref sig .tc .vmem S512x32x16 .f32) (harg3 : arg3.IsWhole) (arg4 : Memref sig .tc .vmem S512x32x128 .i32) (harg4 : arg4.IsWhole) (arg5 : Memref sig .tc .vmem S512 .f32) (harg5 : arg5.IsWhole) (arg6 : Memref sig .tc .vmem S256x512 .f32) (harg6 : arg6.IsWhole) (arg7 : Memref sig .tc .vmem S512x4096 .bf16) (harg7 : arg7.IsWhole) (hc0 : ¬cond0_0 i)
    (x0 : Vec F S256x4096 .f32) (x1 : Vec F S512x32x16 .f32) (x2 : Vec F S512x32x128 .i32) (x3 : Vec F S512 .f32)
    (xs0 : Vec F S512x4096 .bf16) :
    out0_B_4 c i arg2 harg2 arg3 harg3 arg4 harg4 arg5 harg5 arg6 harg6 arg7 harg7 hc0 x0 x1 x2 x3 xs0 = k0_pay2 x0 xs0 x3 := by
  unfold out0_B_4
  rw [View.read_writes_eq_canon _ _ _ (cover0_B_4 c i arg2 harg2 arg3 harg3 arg4 harg4 arg5 harg5 arg6 harg6 arg7 harg7 hc0 x0 x1 x2 x3 xs0)]
  unfold kernelRun0_B
  dsimp only
  rw [View.canon_unit_zero hz2]
  simp only [View.readAt_eq_ld, harg2.read_unread, harg5.read_unread, harg7.read_unread,
    View.ld_unit_zero (S := S256x4096) hz2, View.ld_unit_zero (S := S512x4096) hz2, View.ld_unit_zero (S := S512) hz1]

end Cert.Dequant.Kernel

end
-- ==== Proof.Blocks.lean ====
/-
  Where the grid's blocks sit in their arrays.

  The grid has 64 points; point `t` works on output-feature tile `t / 8` (512 weight rows, 512 bias entries, 512 result
  columns) and on activation-row tile `t % 8` (256 rows). So the eight points of one run `8 o, …, 8 o + 7` share their
  codebook, code and bias blocks and walk through the activation rows. Read at an index, each input block is the whole
  array at the index shifted by the block's offset: row `256 (t % 8) + p` of the activations, weight row
  `512 (t / 8) + r` of codebooks and codes, entry `512 (t / 8) + q` of the bias.
-/
import proofs.«429564_j50165218017637_1_alg».proof.Proof.Gen.KernelIdeal.Frame
import Idealize.ShloMosaic.Lib.ValueIdx
import Idealize.ShloMosaic.Lib.Pipeline.Value

set_option maxRecDepth 16384

noncomputable section

namespace Cert.Dequant.Kernel

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The printed index maps, decided once over the grid: which tile of each array point `t` works on. -/
theorem idx_facts : ∀ t : Fin cfg0.N,
    win0_0.index t (0 : Fin 2) = t.val % 8 ∧ win0_0.index t (1 : Fin 2) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = 0
    ∧ win0_3.index t (0 : Fin 1) = t.val / 8
    ∧ win0_4.index t (0 : Fin 2) = t.val % 8 ∧ win0_4.index t (1 : Fin 2) = t.val / 8 :=
  (by decide +kernel : ∀ t : Fin grid0.N, _)

theorem point_lt (t : Fin cfg0.N) : t.val < 64 := lt_of_lt_of_eq t.isLt (show cfg0.N = 64 from N_0)

/-- The weight row (and bias entry, and result column) that local row `r` of point `t`'s tile is. -/
abbrev wrow (t : Fin cfg0.N) (r : Fin 512) : Fin 4096 :=
  ⟨512 * (t.val / 8) + r.val, by have := point_lt t; have := r.isLt; omega⟩
/-- The activation row that local row `p` of point `t`'s tile is. -/
abbrev xrow (t : Fin cfg0.N) (p : Fin 256) : Fin 2048 :=
  ⟨256 * (t.val % 8) + p.val, by have := p.isLt; omega⟩

/-- The four input blocks at a point, and the four arrays as the region finds them, at their literal types. -/
abbrev xblk (c : Dev nD) (t : Fin cfg0.N) : Vec F S256x4096 .f32 := iblk m c 0 t
abbrev bookblk (c : Dev nD) (t : Fin cfg0.N) : Vec F S512x32x16 .f32 := iblk m c 1 t
abbrev codeblk (c : Dev nD) (t : Fin cfg0.N) : Vec F S512x32x128 .i32 := iblk m c 2 t
abbrev biasblk (c : Dev nD) (t : Fin cfg0.N) : Vec F S512 .f32 := iblk m c 3 t
abbrev xarr (c : Dev nD) : Vec F S2048x4096 .f32 := V m c main_v0
abbrev bookarr (c : Dev nD) : Vec F S4096x32x16 .f32 := V m c main_arg1
abbrev codearr (c : Dev nD) : Vec F S4096x32x128 .i32 := V m c main_arg2
abbrev biasarr (c : Dev nD) : Vec F S4096 .f32 := V m c main_arg3

/-- The activation block at `(p, k)` is the activations at row `256 (t % 8) + p`, feature `k`. -/
theorem xblk_apply (c : Dev nD) (t : Fin cfg0.N) (p : Fin 256) (k : Fin 4096) :
    xblk m c t (ix2 p k) = xarr m c (ix2 (xrow t p) k) := by
  obtain ⟨e0, e1, -⟩ := idx_facts t
  show V m c main_v0 (((cfg0.win 0).blk t).view.emb (ix2 p k)) = V m c main_v0 (ix2 (xrow t p) k)
  congr 1
  funext a; apply Fin.ext
  match a with
  | ⟨0, _⟩ => show win0_0.index t (0 : Fin 2) * 256 + 1 * p.val = 256 * (t.val % 8) + p.val; rw [e0]; omega
  | ⟨1, _⟩ => show win0_0.index t (1 : Fin 2) * 4096 + 1 * k.val = k.val; rw [e1]; omega

/-- The codebook block at `(r, g, e)` is the codebooks at weight row `512 (t / 8) + r`. -/
theorem bookblk_apply (c : Dev nD) (t : Fin cfg0.N) (r : Fin 512) (g : Fin 32) (e : Fin 16) :
    bookblk m c t (ix3 r g e) = bookarr m c (ix3 (wrow t r) g e) := by
  obtain ⟨-, -, e0, e1, e2, -⟩ := idx_facts t
  show V m c main_arg1 (((cfg0.win 1).blk t).view.emb (ix3 r g e)) = V m c main_arg1 (ix3 (wrow t r) g e)
  congr 1
  funext a; apply Fin.ext
  match a with
  | ⟨0, _⟩ => show win0_1.index t (0 : Fin 3) * 512 + 1 * r.val = 512 * (t.val / 8) + r.val; rw [e0]; omega
  | ⟨1, _⟩ => show win0_1.index t (1 : Fin 3) * 32 + 1 * g.val = g.val; rw [e1]; omega
  | ⟨2, _⟩ => show win0_1.index t (2 : Fin 3) * 16 + 1 * e.val = e.val; rw [e2]; omega

/-- The code block at `(r, g, s)` is the codes at weight row `512 (t / 8) + r`. -/
theorem codeblk_apply (c : Dev nD) (t : Fin cfg0.N) (r : Fin 512) (g : Fin 32) (s : Fin 128) :
    codeblk m c t (ix3 r g s) = codearr m c (ix3 (wrow t r) g s) := by
  obtain ⟨-, -, -, -, -, e0, e1, e2, -⟩ := idx_facts t
  show V m c main_arg2 (((cfg0.win 2).blk t).view.emb (ix3 r g s)) = V m c main_arg2 (ix3 (wrow t r) g s)
  congr 1
  funext a; apply Fin.ext
  match a with
  | ⟨0, _⟩ => show win0_2.index t (0 : Fin 3) * 512 + 1 * r.val = 512 * (t.val / 8) + r.val; rw [e0]; omega
  | ⟨1, _⟩ => show win0_2.index t (1 : Fin 3) * 32 + 1 * g.val = g.val; rw [e1]; omega
  | ⟨2, _⟩ => show win0_2.index t (2 : Fin 3) * 128 + 1 * s.val = s.val; rw [e2]; omega

/-- The bias block at `q` is the bias at entry `512 (t / 8) + q`. -/
theorem biasblk_apply (c : Dev nD) (t : Fin cfg0.N) (q : Fin 512) :
    biasblk m c t (ix1 q) = biasarr m c (ix1 (wrow t q)) := by
  obtain ⟨-, -, -, -, -, -, -, -, e0, -⟩ := idx_facts t
  show V m c main_arg3 (((cfg0.win 3).blk t).view.emb (ix1 q)) = V m c main_arg3 (ix1 (wrow t q))
  congr 1
  funext a; apply Fin.ext
  match a with
  | ⟨0, _⟩ => show win0_3.index t (0 : Fin 1) * 512 + 1 * q.val = 512 * (t.val / 8) + q.val; rw [e0]; omega

end Cert.Dequant.Kernel

end
-- ==== Proof.Carried.lean ====
/-
  What the carried weight tile and the output block hold after each grid point.

  The kernel decompresses the weights of an output-feature tile once, at the first of the tile's eight points, into a
  buffer it keeps; the other seven points only read it. Point `t`'s codebook and code blocks are those of tile `t / 8`,
  the same at all eight points of the run, so after EVERY point the kept buffer holds, at row `r` and column `k`, the
  kernel's own decompressed weight (`kweight`: the chain of sixteen selections) at weight row `512 (t / 8) + r`: at a
  run's first point because it was just written from that point's blocks, at the others because nothing wrote it since
  and `(t − 1) / 8 = t / 8`. (Induction on the point.)
  The output block after point `t` is the product step of that point's activation block, the kept buffer and the bias
  block; entry by entry: `∑ₖ x[256 (t % 8) + p, k] · W[512 (t / 8) + q, k] + bias[512 (t / 8) + q]`.
-/
import proofs.«429564_j50165218017637_1_alg».proof.Proof.Spec
import proofs.«429564_j50165218017637_1_alg».proof.Proof.WeightTile
import proofs.«429564_j50165218017637_1_alg».proof.Proof.OutTile
import proofs.«429564_j50165218017637_1_alg».proof.Proof.Pieces
import proofs.«429564_j50165218017637_1_alg».proof.Proof.Blocks

set_option maxRecDepth 16384

noncomputable section

namespace Cert.Dequant.Kernel

open Cert.KernelIdeal Cert.KernelIdeal.Gen Idealize.ShloMosaic Idealize.ShloMosaic.TcCoe Idealize.SL.Sem
open Idealize.ShloMosaic.ValueIdx Cert.Dequant

variable (m : (ℓ : Loc nD τ sig) → Buf (Elt Ideal) ℓ)

/-- The kernel's own decompressed weight at row `o`, column `k`: the sixteen selections over the code and the codebook
    of the column's group. -/
def kweight (book : FVec Ideal SBook .f32) (codes : IVec SCode 32) (o k : Fin 4096) : EReal :=
  chain16 (codes (ix3 o (grp k) (pos k))) (fun e => book (ix3 o (grp k) e)) zero

/-- Where the codes are codebook positions it is the decompressed weight of the specification. -/
theorem kweight_eq (book : FVec Ideal SBook .f32) (codes : IVec SCode 32) (h : CodesOk codes) (o k : Fin 4096) :
    kweight book codes o k = weight book codes o k := by
  unfold kweight
  rw [chain16_of_lt _ (h _), weight_of_lt book codes o k (h _)]

/-- THE KEPT BUFFER after point `n`: the kernel's decompressed weights of tile `n / 8`. -/
theorem kept_eq (c : Dev nD) : ∀ (n : ℕ) (h : n < cfg0.N) (r : Fin 512) (k : Fin 4096),
    (outsAt0 m c n h).2 (ix2 r k) = kweight (bookarr m c) (codearr m c) (wrow ⟨n, h⟩ r) k := by
  intro n
  induction n with
  | zero =>
    intro h r k
    rw [outsAt0_A m c ⟨0, h⟩ rfl]
    dsimp only
    rw [scratch_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) ((hcond0_0 ⟨0, h⟩).mpr rfl) (xblk m c ⟨0, h⟩) (bookblk m c ⟨0, h⟩) (codeblk m c ⟨0, h⟩) (biasblk m c ⟨0, h⟩)]
    rw [tile_apply (codeblk m c ⟨0, h⟩) (bookblk m c ⟨0, h⟩) r (grp k) (pos k) k (by show k.val = k.val / 128 * 128 + k.val % 128; omega)]
    unfold kweight
    rw [codeblk_apply m c ⟨0, h⟩ r (grp k) (pos k)]
    congr 1
    funext e
    exact bookblk_apply m c ⟨0, h⟩ r (grp k) e
  | succ n ih =>
    intro h r k
    by_cases h0 : (n + 1) % 8 = 0
    · rw [outsAt0_A m c ⟨n + 1, h⟩ h0]
      dsimp only
      rw [scratch_A (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) ((hcond0_0 ⟨n + 1, h⟩).mpr h0) (xblk m c ⟨n + 1, h⟩) (bookblk m c ⟨n + 1, h⟩) (codeblk m c ⟨n + 1, h⟩) (biasblk m c ⟨n + 1, h⟩)]
      rw [tile_apply (codeblk m c ⟨n + 1, h⟩) (bookblk m c ⟨n + 1, h⟩) r (grp k) (pos k) k (by show k.val = k.val / 128 * 128 + k.val % 128; omega)]
      unfold kweight
      rw [codeblk_apply m c ⟨n + 1, h⟩ r (grp k) (pos k)]
      congr 1
      funext e
      exact bookblk_apply m c ⟨n + 1, h⟩ r (grp k) e
    · rw [outsAt0_B m c ⟨n + 1, h⟩ h0]
      dsimp only
      unfold sout0_B_0
      have hprev := ih (Nat.lt_of_succ_lt h) r k
      have hrow : wrow ⟨n + 1, h⟩ r = wrow ⟨n, Nat.lt_of_succ_lt h⟩ r := Fin.ext (by show 512 * ((n + 1) / 8) + r.val = 512 * (n / 8) + r.val; omega)
      rw [hrow]
      exact hprev

/-- THE OUTPUT BLOCK after point `t` is the product step of the point's activation block, the kept buffer as that point
    leaves it, and the point's bias block: at a run's first point the buffer was written just before the product read it,
    at the others it is what the point before left. -/
theorem outblk_eq (c : Dev nD) (t : Fin cfg0.N) :
    (outsAt0 m c t.val t.isLt).1 = k0_pay2 (xblk m c t) (outsAt0 m c t.val t.isLt).2 (biasblk m c t) := by
  by_cases h0 : t.val % 8 = 0
  · rw [outsAt0_A m c t h0]
    dsimp only
    rw [out_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (xblk m c t) (bookblk m c t) (codeblk m c t) (biasblk m c t),
      scratch_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (xblk m c t) (bookblk m c t) (codeblk m c t) (biasblk m c t)]
  · rw [outsAt0_B m c t h0]
    dsimp only
    rw [out_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (xblk m c t) (bookblk m c t) (codeblk m c t) (biasblk m c t) (outsAt0 m c (t.val - 1) (Nat.lt_of_le_of_lt (Nat.sub_le _ _) t.isLt)).2]
    rfl

/-- The output block after point `t`, entry by entry. -/
theorem outblk_apply (c : Dev nD) (t : Fin cfg0.N) (p : Fin 256) (q : Fin 512) :
    (outsAt0 m c t.val t.isLt).1 (ix2 p q)
      = (∑ k : Fin 4096, xarr m c (ix2 (xrow t p) k) * kweight (bookarr m c) (codearr m c) (wrow t q) k)
        + biasarr m c (ix1 (wrow t q)) := by
  refine (congrFun (outblk_eq m c t) (ix2 p q)).trans ?_
  refine (out_apply (xblk m c t) (outsAt0 m c t.val t.isLt).2 (biasblk m c t) p q).trans ?_
  have hterm : ∀ k : Fin 4096, xblk m c t (ix2 p k) * (outsAt0 m c t.val t.isLt).2 (ix2 q k)
      = xarr m c (ix2 (xrow t p) k) * kweight (bookarr m c) (codearr m c) (wrow t q) k := fun k => by
    rw [xblk_apply m c t p k, kept_eq m c t.val t.isLt q k]
  exact congrArg₂ (fun a b : EReal => a + b) (Finset.sum_congr rfl fun k _ => hterm k) (biasblk_apply m c t q)

end Cert.Dequant.Kernel

end
-- ==== Proof.KernelValue.lean ====
/-
  The kernel's result as one function of its arguments.

  Every grid point writes its 256 × 512 output block back into the 2048 × 4096 result, block `(t % 8, t / 8)`; the 64
  blocks tile the result, so after the run the result holds, at row `R` and column `o`,
  `∑ₖ X[R, k] · W[o, k] + bias[o]` (`klinear`), where `X` is the activations as the region finds them: the argument
  reshaped from 2 × 1024 rows to 2048 rows. The program then reshapes the result back to 2 × 1024 × 4096; row
  `b · 1024 + s` of `X` is row `(b, s)` of the argument, so the final array is the specification's `linear` wherever the
  codes are codebook positions.
-/
import proofs.«429564_j50165218017637_1_alg».proof.Proof.Carried
import Idealize.ShloMosaic.Lib.StableHlo.Run

set_option maxRecDepth 16384

noncomputable section

namespace Cert.Dequant.Kernel

open Cert.KernelIdeal Cert.KernelIdeal.Gen Idealize.ShloMosaic Idealize.ShloMosaic.TcCoe Idealize.SL.Sem
open Idealize.ShloMosaic.ValueIdx Cert.Dequant
open Idealize.ShloMosaic.Pipeline (Dat)

variable (m : (ℓ : Loc nD τ sig) → Buf (Elt Ideal) ℓ) (ρ : Dev nD → PrngReg)

/-- The 2048 × 4096 result as one function of the arrays the region reads. -/
def klinear (x2 : FVec Ideal S2048x4096 .f32) (book : FVec Ideal SBook .f32) (codes : IVec SCode 32)
    (bias : FVec Ideal SBias .f32) : FVec Ideal S2048x4096 .f32 :=
  fun i => (∑ k : Fin 4096, x2 (ix2 (i 0) k) * kweight book codes (i 1) k) + bias (ix1 (i 1))

/-- WHAT POINT `t` WRITES BACK is its block of `klinear` of the arrays as the region finds them. -/
theorem flushed_eq (c : Dev nD) (t : Fin cfg0.N) :
    (dats m 0 c).flushed 4 t
      = ((cfg0.win 4).blk t).view.read (Elt Ideal) (klinear (xarr m c) (bookarr m c) (codearr m c) (biasarr m c)) := by
  obtain ⟨-, -, -, -, -, -, -, -, -, e0, e1⟩ := idx_facts t
  show (cfg0.win 4).cut (grid0.coords t) ((dats m 0 c).after 4 t) = _
  rw [after0_4]
  funext y
  obtain ⟨p, q, rfl⟩ : ∃ (p : Fin 256) (q : Fin 512), y = ix2 p q := ⟨y 0, y 1, eq_ix2 y⟩
  show (outsAt0 m c t.val t.isLt).1 (ix2 p q)
    = klinear (xarr m c) (bookarr m c) (codearr m c) (biasarr m c) (((cfg0.win 4).blk t).view.emb (ix2 p q))
  have he : ((cfg0.win 4).blk t).view.emb (ix2 p q) = ix2 (xrow t p) (wrow t q) := by
    funext a; apply Fin.ext
    match a with
    | ⟨0, _⟩ => show win0_4.index t (0 : Fin 2) * 256 + 1 * p.val = 256 * (t.val % 8) + p.val; rw [e0]; omega
    | ⟨1, _⟩ => show win0_4.index t (1 : Fin 2) * 512 + 1 * q.val = 512 * (t.val / 8) + q.val; rw [e1]; omega
  rw [he, outblk_apply m c t p q]
  rfl

/-- An index of the result is in point `t`'s block iff each coordinate is in the block's range on its axis. -/
theorem mem_blk (t : Fin cfg0.N) (i : S2048x4096.Idx) :
    i ∈ ((cfg0.win 4).blk t).view.set ↔ ∀ a : Fin 2, win0_4.index t a * S256x512.size a ≤ (i a).val ∧ (i a).val < win0_4.index t a * S256x512.size a + S256x512.size a := by
  show i ∈ ((View.whole main_v1).slice (win0_4.rect t)).set ↔ _
  rw [View.set_slice_whole, Rect.mem_set_unit]
  exact Iff.rfl

/-- The 64 blocks cover the result: row `R`, column `o` lies in the block of point `(o / 512) · 8 + R / 256`. -/
theorem cover (i : S2048x4096.Idx) :
    ∃ t : Fin cfg0.N, (cfg0.win 4).flush t = true ∧ i ∈ ((cfg0.win 4).blk t).view.set := by
  have hi0 : (i 0).val < 2048 := (i 0).isLt
  have hi1 : (i 1).val < 4096 := (i 1).isLt
  have hN : cfg0.N = 64 := N_0
  have hlt : (i 1).val / 512 * 8 + (i 0).val / 256 < cfg0.N := by omega
  obtain ⟨-, -, -, -, -, -, -, -, -, e0, e1⟩ := idx_facts ⟨(i 1).val / 512 * 8 + (i 0).val / 256, hlt⟩
  refine ⟨⟨(i 1).val / 512 * 8 + (i 0).val / 256, hlt⟩, flush0_4 _, ?_⟩
  rw [mem_blk]
  intro a
  match a with
  | ⟨0, _⟩ =>
    show win0_4.index ⟨(i 1).val / 512 * 8 + (i 0).val / 256, hlt⟩ (0 : Fin 2) * 256 ≤ (i 0).val ∧ (i 0).val < win0_4.index ⟨(i 1).val / 512 * 8 + (i 0).val / 256, hlt⟩ (0 : Fin 2) * 256 + 256
    rw [e0]; show ((i 1).val / 512 * 8 + (i 0).val / 256) % 8 * 256 ≤ (i 0).val ∧ (i 0).val < ((i 1).val / 512 * 8 + (i 0).val / 256) % 8 * 256 + 256; omega
  | ⟨1, _⟩ =>
    show win0_4.index ⟨(i 1).val / 512 * 8 + (i 0).val / 256, hlt⟩ (1 : Fin 2) * 512 ≤ (i 1).val ∧ (i 1).val < win0_4.index ⟨(i 1).val / 512 * 8 + (i 0).val / 256, hlt⟩ (1 : Fin 2) * 512 + 512
    rw [e1]; show ((i 1).val / 512 * 8 + (i 0).val / 256) / 8 * 512 ≤ (i 1).val ∧ (i 1).val < ((i 1).val / 512 * 8 + (i 0).val / 256) / 8 * 512 + 512; omega

/-- THE RESULT ARRAY after the run. -/
theorem final (c : Dev nD) :
    (dats m 0 c).arrAt 4 cfg0.N = klinear (xarr m c) (bookarr m c) (codearr m c) (biasarr m c) :=
  (dats m 0 c).arrAt_eq_of_cover 4 _ (fun t _ => flushed_eq m c t) cover

/-! ## Around the region: the two reshapes -/

/-- The activations as the region finds them: the argument reshaped to 2048 rows. -/
theorem xarr_eq (c : Dev nD) :
    xarr m c = shapeCast S2048x4096 (m ((c : Thread nD τ).loc main_arg0)) shapeCasts_S2x1024x4096_S2048x4096 := by
  show StableHlo.after hostOps0 (fun b => m (c, b)) (Proc.devRef .tc main_v0) = _
  after_results
  rfl

/-- What the program returns: the region's result array, reshaped to 2 × 1024 × 4096. -/
theorem result_eq (c : Dev nD) :
    (Pipeline.afterTail₀ cfgs (dats m) 0 (V0 m) [hostOps1] c main_v2 : S2x1024x4096.Idx → Elt Ideal .f32)
      = shapeCast S2x1024x4096 (klinear (xarr m c) (bookarr m c) (codearr m c) (biasarr m c))
          shapeCasts_S2048x4096_S2x1024x4096 := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = klinear (xarr m c) (bookarr m c) (codearr m c) (biasarr m c) :=
    (Pipeline.withArrays_arr spec0 launch0.win.arr_inj c (V0 m c) (fun w => (dats m 0 c).arrAt w (cfgs 0).N) 4).trans (final m c)
  rw [hw]
  rfl

/-- Row `b · 1024 + s` of the reshaped activations is row `(b, s)` of the argument, so the reshaped result is the
    specification's affine map — where the codes are codebook positions, which is where the kernel's chain of selections
    is the table lookup. -/
theorem reshaped_eq (x : FVec Ideal SAct .f32) (book : FVec Ideal SBook .f32) (codes : IVec SCode 32)
    (bias : FVec Ideal SBias .f32) (hok : CodesOk codes) (h1 : SAct.ShapeCasts S2048x4096) (h2 : S2048x4096.ShapeCasts SAct) :
    shapeCast SAct (klinear (shapeCast S2048x4096 x h1) book codes bias) h2 = linear x book codes bias := by
  funext i
  obtain ⟨b, s, o, rfl⟩ : ∃ (b : Fin 2) (s : Fin 1024) (o : Fin 4096), i = ix3 b s o := ⟨i 0, i 1, i 2, eq_ix3 i⟩
  have hb : b.val < 2 := b.isLt
  have hs : s.val < 1024 := s.isLt
  have hR : b.val * 1024 + s.val < 2048 := by omega
  rw [linear_apply]
  refine (shapeCast_apply _ h2 (ix3 b s o) (ix2 (⟨b.val * 1024 + s.val, hR⟩ : Fin 2048) o) ?_).trans ?_
  · rewrite [Shape.rowMajor_val_two, Shape.rowMajor_val_three]
    show (b.val * 1024 + s.val) * 4096 + o.val = (b.val * 1024 + s.val) * 4096 + o.val
    rfl
  show (∑ k : Fin 4096, shapeCast S2048x4096 x h1 (ix2 (⟨b.val * 1024 + s.val, hR⟩ : Fin 2048) k) * kweight book codes o k)
      + bias (ix1 o) = _
  congr 1
  refine Finset.sum_congr rfl fun k _ => ?_
  rw [kweight_eq book codes hok o k]
  congr 1
  refine shapeCast_apply x h1 (ix2 (⟨b.val * 1024 + s.val, hR⟩ : Fin 2048) k) (ix3 b s k) ?_
  rewrite [Shape.rowMajor_val_three, Shape.rowMajor_val_two]
  show (b.val * 1024 + s.val) * 4096 + k.val = (b.val * 1024 + s.val) * 4096 + k.val
  rfl

/-! ## The run, read -/

/-- At `Ideal`, from any memory whose codes are codebook positions: every weakly fair execution of the kernel's program
    terminates with its result at the specification's affine map of the arguments, the arguments unchanged. -/
theorem run (hok : ∀ c : Dev nD, CodesOk (m ((c.tc : Thread nD τ).loc main_arg2))) :
    θ_run defs (onTc (τ := τ) (main (F := Ideal))) ⟨m, fun _ => 0, ρ⟩ fun r => ∀ c : Dev nD,
      r.2.mem ((c.tc : Thread nD τ).loc main_v2)
        = linear (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v2 (Pipeline.mem_restRefs_of main_v2 (by decide) (by decide))).trans ((result_eq m c).trans (by
        rw [xarr_eq m c, show bookarr m c = m ((c.tc : Thread nD τ).loc main_arg1) from V_main_arg1 m c,
          show codearr m c = m ((c.tc : Thread nD τ).loc main_arg2) from V_main_arg2 m c,
          show biasarr m c = m ((c.tc : Thread nD τ).loc main_arg3) from V_main_arg3 m c]
        exact reshaped_eq _ _ _ _ (hok c) _ _)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.Dequant.Kernel

end
-- ==== Proof.RefLemmas.lean ====
/-
  The two stages of the reference whose result element is chosen by the VALUES of the codes, each read at an index,
  the facts about a code word that is a codebook position, and the precondition read back as the range of the codes.

  The reference decompresses the weight by a batched take: for row `o`, group `g` and column `p` of the group it
  reads the row's codebook for the group at the code stored there. The take reads its start index signed and clamps
  it into `[0, 15]` (`gather_apply`). Beside it the reference computes, per element, whether the index was in range,
  as an `and` over a last axis of extent one, which is the element itself (`reduce_unit_apply`). For a code below
  sixteen the three signed comparisons the reference makes come out as expected and the signed reading of the word is
  the word (`slt_zero_of_lt`, `sge_zero_of_lt`, `sle_fifteen_of_lt`, `toInt_toNat_of_lt`).

  The precondition ends in `all (0 ≤ codes) ∧ all (codes < 16)`, both comparisons signed; where it holds every code,
  read as a natural number, is below sixteen (`codesOk_of_pre`).
-/
import proofs.«429564_j50165218017637_1_alg».proof.Proof.Gen.ReferenceIdeal
import proofs.«429564_j50165218017637_1_alg».proof.Proof.Gen.Pre_finite_inputs
import proofs.«429564_j50165218017637_1_alg».proof.Proof.Spec
import Idealize.ShloMosaic.Lib.ValueIdx
import Idealize.ShloMosaic.Lib.Pipeline.Value
import Idealize.ShloMosaic.Lib.ReduceAll
import Idealize.ShloMosaic.Lib.StableHlo.Predicate
import Idealize.ShloMosaic.Lib.WordArith
import Idealize.ShloMosaic.PureOps.Ideal.Laws

noncomputable section

namespace Cert.Dequant.Ref

open Idealize.ShloMosaic Idealize.ShloMosaic.ValueIdx Cert.ReferenceIdeal Cert.ReferenceIdeal.Gen

/-! ## The batched take, read at an index -/

/-- The start-indices index at which the take reads the one component of the start index of result element
    `(a, b, c)`: the element's own coordinates, and `0` on the index vector's axis. -/
theorem gather_siIdx (a : Fin 4096) (b : Fin 32) (c : Fin 128)
    (q : Fin gather_S4096x32x16_S4096x32x128x1_S4096x32x128_n_2_01_01_2_3_111.startIndexMap.length) :
    gather_S4096x32x16_S4096x32x128x1_S4096x32x128_n_2_01_01_2_3_111.siIdx (ix3 a b c) q = ix4 a b c (0 : Fin 1) := by
  have hq : q.val = 0 := by
    have := q.isLt
    have hl : gather_S4096x32x16_S4096x32x128x1_S4096x32x128_n_2_01_01_2_3_111.startIndexMap.length = 1 := rfl
    omega
  funext e
  refine Fin.ext ?_
  match e with
  | ⟨0, _⟩ => rfl
  | ⟨1, _⟩ => rfl
  | ⟨2, _⟩ => rfl
  | ⟨3, _⟩ => exact hq

/-- THE TAKE READ AT `(a, b, c)`: the codebook of row `a`, group `b`, at the start index stored for `(a, b, c)`, read
    signed and clamped into `[0, 15]`. The first two axes are batching axes (the result's coordinate passes through),
    the third is the collapsed axis the start index addresses. -/
theorem gather_apply {α : Type} {w : Nat} (x : S4096x32x16.Idx → α) (idx : IVec S4096x32x128x1 w)
    (a : Fin 4096) (b : Fin 32) (c : Fin 128) :
    Host.gather gather_S4096x32x16_S4096x32x128x1_S4096x32x128_n_2_01_01_2_3_111 x idx (ix3 a b c)
      = x (ix3 a b ⟨min (idx (ix4 a b c (0 : Fin 1))).toInt.toNat 15, by omega⟩) := by
  unfold Host.gather
  congr 1
  funext e
  refine Fin.ext ?_
  match e with
  | ⟨0, _⟩ =>
    show gather_S4096x32x16_S4096x32x128x1_S4096x32x128_n_2_01_01_2_3_111.start (ix3 a b c) idx 0
        + gather_S4096x32x16_S4096x32x128x1_S4096x32x128_n_2_01_01_2_3_111.batchCoord (ix3 a b c) 0
        + gather_S4096x32x16_S4096x32x128x1_S4096x32x128_n_2_01_01_2_3_111.offCoord (ix3 a b c) 0 = a.val
    rw [GatherDims.start_batching _ _ _ _ (by decide),
      GatherDims.offCoord_eq_zero _ _ _ (fun h => ((GatherDims.mem_sKept _ _).mp h).2 (by decide))]
    simp only [Nat.zero_add, Nat.add_zero]
    rfl
  | ⟨1, _⟩ =>
    show gather_S4096x32x16_S4096x32x128x1_S4096x32x128_n_2_01_01_2_3_111.start (ix3 a b c) idx 1
        + gather_S4096x32x16_S4096x32x128x1_S4096x32x128_n_2_01_01_2_3_111.batchCoord (ix3 a b c) 1
        + gather_S4096x32x16_S4096x32x128x1_S4096x32x128_n_2_01_01_2_3_111.offCoord (ix3 a b c) 1 = b.val
    rw [GatherDims.start_batching _ _ _ _ (by decide),
      GatherDims.offCoord_eq_zero _ _ _ (fun h => ((GatherDims.mem_sKept _ _).mp h).2 (by decide))]
    simp only [Nat.zero_add, Nat.add_zero]
    rfl
  | ⟨2, _⟩ =>
    show gather_S4096x32x16_S4096x32x128x1_S4096x32x128_n_2_01_01_2_3_111.start (ix3 a b c) idx 2
        + gather_S4096x32x16_S4096x32x128x1_S4096x32x128_n_2_01_01_2_3_111.batchCoord (ix3 a b c) 2
        + gather_S4096x32x16_S4096x32x128x1_S4096x32x128_n_2_01_01_2_3_111.offCoord (ix3 a b c) 2
        = min (idx (ix4 a b c (0 : Fin 1))).toInt.toNat 15
    rw [GatherDims.batchCoord_eq_zero _ _ _ (by decide),
      GatherDims.offCoord_eq_zero _ _ _ (fun h => ((GatherDims.mem_sKept _ _).mp h).1 (by decide))]
    simp only [Nat.add_zero]
    unfold GatherDims.start
    rw [dif_pos (show (2 : Fin 3) ∈ gather_S4096x32x16_S4096x32x128x1_S4096x32x128_n_2_01_01_2_3_111.startIndexMap
      from List.mem_singleton.mpr rfl), gather_siIdx]
    rfl

/-! ## The `and` over a last axis of extent one -/

/-- A one-bit word and-ed with `1` is itself. -/
theorem andi_one (y : BitVec 1) : IntOp.andi y 1#1 = y := by revert y; decide

/-- THE REDUCTION READ AT `(a, b, c)`: an `and` from `1` over the last axis, whose extent is one, is the operand's
    element at `(a, b, c, 0)`. -/
theorem reduce_unit_apply (v : IVec S4096x32x128x1 1) (h' : S4096x32x128x1.ReducesTo [3] S4096x32x128)
    (hu : 0 < S_.numel) (a : Fin 4096) (b : Fin 32) (c : Fin 128) :
    Host.reduce IntOp.andi v (constantI S_ 1 1#1) h' hu (ix3 a b c) = v (ix4 a b c (0 : Fin 1)) := by
  have h : S4096x32x128x1.Reduces [3] S4096x32x128 := by decide
  have hl : ∀ k : Fin (S4096x32x128x1.size 3), h.lift (ix3 a b c) k = ix4 a b c (0 : Fin 1) := by
    intro k
    have hk : k.val = 0 := Nat.lt_one_iff.1 (show k.val < 1 from k.isLt)
    funext e
    refine Fin.ext ?_
    rw [h.lift_val]
    match e with
    | ⟨0, _⟩ => rfl
    | ⟨1, _⟩ => rfl
    | ⟨2, _⟩ => rfl
    | ⟨3, _⟩ => exact hk
  haveI : Unique (Fin (S4096x32x128x1.size 3)) := (inferInstance : Unique (Fin 1))
  rw [Host.reduce_eq_fold_single IntOp.andi v _ h' h hu, Finset.univ_unique, Finset.fold_singleton]
  show IntOp.andi (v (h.lift (ix3 a b c) default)) 1#1 = _
  rw [hl, andi_one]

/-! ## A code that is a codebook position -/

section Word
variable {w : BitVec 32}

/-- A word below sixteen reads the same signed and unsigned. -/
theorem toInt_of_lt (h : w.toNat < 16) : w.toInt = (w.toNat : Int) :=
  BitVec.toInt_eq_toNat_of_lt (by omega)

theorem toInt_toNat_of_lt (h : w.toNat < 16) : w.toInt.toNat = w.toNat := by
  rw [toInt_of_lt h]; rfl

/-- It is not negative, -/
theorem slt_zero_of_lt (h : w.toNat < 16) : IntOp.cmpi .slt w 0#32 = 0#1 := by
  refine eq_zero_of_ne_one fun h1 => ?_
  have h2 := IntOp.cmpi_slt.1 h1
  rw [toInt_of_lt h, show (0#32 : BitVec 32).toInt = 0 from by decide] at h2
  omega

/-- it is at least zero, -/
theorem sge_zero_of_lt (h : w.toNat < 16) : IntOp.cmpi .sge w 0#32 = 1#1 := by
  refine IntOp.cmpi_sge.2 ?_
  rw [toInt_of_lt h, show (0#32 : BitVec 32).toInt = 0 from by decide]
  omega

/-- and it is at most fifteen. -/
theorem sle_fifteen_of_lt (h : w.toNat < 16) : IntOp.cmpi .sle w 15#32 = 1#1 := by
  refine IntOp.cmpi_sle.2 ?_
  rw [toInt_of_lt h, show (15#32 : BitVec 32).toInt = 15 from by decide]
  omega

/-- Conversely a word that is at least zero and below sixteen, both read signed, is below sixteen as a natural
    number. -/
theorem lt_of_sge_slt (hge : IntOp.cmpi .sge w 0#32 = 1#1) (hlt : IntOp.cmpi .slt w 16#32 = 1#1) : w.toNat < 16 := by
  have h1 := IntOp.cmpi_sge.1 hge
  have h2 := IntOp.cmpi_slt.1 hlt
  rw [show (0#32 : BitVec 32).toInt = 0 from by decide] at h1
  rw [show (16#32 : BitVec 32).toInt = 16 from by decide] at h2
  have h3 : 2 * w.toNat < 2 ^ 32 := BitVec.toInt_pos_iff.1 h1
  rw [BitVec.toInt_eq_toNat_of_lt h3] at h2
  omega

end Word

/-! ## The precondition read back -/

/-- Where the precondition holds, every code is a codebook position: its last two conjuncts are
    `all (codes ≥ 0)` and `all (codes < 16)`, signed. -/
theorem codesOk_of_pre [Cert.Pre_finite_inputs.Facts] (x0 : FVec Ideal SAct .f32) (x1 : FVec Ideal SBook .f32)
    (x2 : IVec SCode 32) (x3 : FVec Ideal SBias .f32)
    (h : Cert.Pre_finite_inputs.fn (F := Ideal) x0 x1 x2 x3 = fun _ => 1#1) : CodesOk x2 := by
  intro i
  have h0 := congrFun h ValueIdx.ix0
  dsimp only [Cert.Pre_finite_inputs.fn, Cert.Pre_finite_inputs.fn_part1] at h0
  obtain ⟨-, h19⟩ := IntOp.andi_eq_one.1 h0
  haveI : Subsingleton Cert.Pre_finite_inputs.S_.Idx := ⟨fun a b => funext fun d => d.elim0⟩
  have hi := Host.reduce_andi_all _ _ _ _ _ h19 i
  obtain ⟨hge, hlt⟩ := IntOp.andi_eq_one.1 hi
  refine lt_of_sge_slt ?_ ?_
  · refine Eq.trans ?_ hge
    show IntOp.cmpi .sge (x2 i) 0#32 = IntOp.cmpi .sge (x2 i) _
    rw [StableHlo.Predicate.bcast_scalar _ (by decide)]
    rfl
  · refine Eq.trans ?_ hlt
    show IntOp.cmpi .slt (x2 i) 16#32 = IntOp.cmpi .slt (x2 i) _
    rw [StableHlo.Predicate.bcast_scalar _ (by decide)]
    rfl

end Cert.Dequant.Ref

end
-- ==== Proof.RefValue.lean ====
/-
  The reference's result is the specification's affine map, where every code is a codebook position.

  The reference decompresses the weight with a batched take and multiplies. Read at an output element `(b, s, o)`
  its result is the sum over the input features `k` of `x[b, s, k]` times the decompressed weight matrix at
  `(o, k)`, plus `bias[o]`. The matrix is the `[4096, 32, 128]` array of taken codebook entries read in row-major
  order, so its element `(o, k)` is the array's element at row `o`, group `k / 128`, column `k % 128` of the group.
  There the take reads the row's codebook for the group at the code (`dequant_apply`): the reference's own wrapping
  of negative indices leaves a codebook position alone (`startIdx_eq`), the in-range flag it computes beside the take
  is set (`ok_eq_one`), and the take's clamp into `[0, 15]` leaves the position alone too.
-/
import proofs.«429564_j50165218017637_1_alg».proof.Proof.RefLemmas
import proofs.«429564_j50165218017637_1_alg».proof.Proof.RefRead

noncomputable section

namespace Cert.Dequant.Ref

open Idealize.ShloMosaic Idealize.ShloMosaic.ValueIdx Cert.ReferenceIdeal Cert.ReferenceIdeal.Gen
open Cert.ReferenceIdeal.ReadCopy

section Stages
variable {F : FTy → Type} [FloatOps F]

/-- The start index the reference takes at: the code itself when it is a codebook position (the reference adds 16
    to a negative index first, and a position is not negative). -/
theorem startIdx_eq (x2 : IVec S4096x32x128 32) (o : Fin 4096) (g : Fin 32) (p : Fin 128)
    (h : (x2 (ix3 o g p)).toNat < 16) :
    val_main_call0_v5 (F := F) x2 (ix4 o g p (0 : Fin 1)) = x2 (ix3 o g p) := by
  have hj : idx_main_call0_v5 (ix4 o g p (0 : Fin 1)) = ix3 o g p := by
    funext e
    refine Fin.ext ?_
    have ho := o.isLt
    have hg := g.isLt
    have hp := p.isLt
    match e with
    | ⟨0, _⟩ => show (((o.val * 32 + g.val) * 128 + p.val) * 1 + 0) / 4096 = o.val; omega
    | ⟨1, _⟩ => show (((o.val * 32 + g.val) * 128 + p.val) * 1 + 0) / 128 % 32 = g.val; omega
    | ⟨2, _⟩ => show (((o.val * 32 + g.val) * 128 + p.val) * 1 + 0) % 128 = p.val; omega
  rw [val_main_call0_v5_apply, hj, val_main_call0_v4_apply, val_main_call0_v1_apply, val_main_call0_v0_apply,
    val_main_call0_c_apply, slt_zero_of_lt h, select_zero]

/-- The flag the reference computes beside the take, "the start index is in `[0, 15]`", is set at a codebook
    position. -/
theorem ok_eq_one (x2 : IVec S4096x32x128 32) (o : Fin 4096) (g : Fin 32) (p : Fin 128)
    (h : (x2 (ix3 o g p)).toNat < 16) :
    val_main_call0_v12 (F := F) x2 (ix3 o g p) = 1#1 := by
  unfold val_main_call0_v12 val_main_call0_c_3
  rw [reduce_unit_apply, val_main_call0_v11_apply, val_main_call0_v7_apply, val_main_call0_v10_apply,
    startIdx_eq x2 o g p h, val_main_call0_v6_apply, val_main_call0_c_2_apply, val_main_call0_v9_apply,
    val_main_call0_v8_apply, val_main_call0_c_1_apply, sge_zero_of_lt h, sle_fifteen_of_lt h]
  rfl

/-- THE DECOMPRESSED WEIGHT, as the reference computes it, at row `o`, group `g` and column `p` of the group: the
    row's codebook for the group, at the code. -/
theorem dequant_apply (x1 : (⟨S4096x32x16, .f32⟩ : BufTy).Contents (Elt F)) (x2 : IVec S4096x32x128 32)
    (o : Fin 4096) (g : Fin 32) (p : Fin 128) (h : (x2 (ix3 o g p)).toNat < 16) :
    val_main_v0 (F := F) x1 x2 (ix3 o g p) = x1 (ix3 o g ⟨(x2 (ix3 o g p)).toNat, h⟩) := by
  rw [val_main_v0_apply, ok_eq_one x2 o g p h, select_one]
  unfold val_main_call0_v13
  rw [gather_apply]
  refine congrArg (fun q : Fin 16 => x1 (ix3 o g q)) (Fin.ext ?_)
  show min (val_main_call0_v5 (F := F) x2 (ix4 o g p (0 : Fin 1))).toInt.toNat 15 = (x2 (ix3 o g p)).toNat
  rw [startIdx_eq x2 o g p h, toInt_toNat_of_lt h]
  omega

end Stages

/-- THE REFERENCE IS THE SPECIFICATION'S AFFINE MAP where every code is a codebook position. -/
theorem ref_eq (x0 : FVec Ideal SAct .f32) (x1 : FVec Ideal SBook .f32) (x2 : IVec SCode 32) (x3 : FVec Ideal SBias .f32)
    (h : CodesOk x2) :
    Cert.ReferenceIdeal.ReadCopy.val_main_v5 (F := Ideal) x0 x1 x2 x3 = linear x0 x1 x2 x3 := by
  funext i
  obtain ⟨b, s, o, rfl⟩ : ∃ (b : Fin 2) (s : Fin 1024) (o : Fin 4096), i = ix3 b s o := ⟨i 0, i 1, i 2, eq_ix3 i⟩
  rw [linear_apply, val_main_v5_apply, val_main_v2_apply, val_main_v4_apply, val_main_v3_apply]
  show (∑ k : Fin 4096, x0 (lidx_main_v2 (ix3 b s o) k) * val_main_v1 (F := Ideal) x1 x2 (ridx_main_v2 (ix3 b s o) k))
      + x3 (idx_main_v3 (idx_main_v4 (ix3 b s o))) = _
  have hbias : idx_main_v3 (idx_main_v4 (ix3 b s o)) = ix1 o := by
    funext e
    match e with
    | ⟨0, _⟩ => rfl
  rw [hbias]
  congr 1
  refine Finset.sum_congr rfl fun k _ => ?_
  -- the left factor: the activation at input feature `k`
  have hl : lidx_main_v2 (ix3 b s o) k = ix3 b s k := by
    funext e
    match e with
    | ⟨0, _⟩ => rfl
    | ⟨1, _⟩ => rfl
    | ⟨2, _⟩ => rfl
  -- the right factor: element `(o, k)` of the matrix is element `(o, k / 128, k % 128)` of the taken array
  have hr : idx_main_v1 (ridx_main_v2 (ix3 b s o) k) = ix3 o (grp k) (pos k) := by
    funext e
    refine Fin.ext ?_
    have ho := o.isLt
    have hk := k.isLt
    match e with
    | ⟨0, _⟩ => show (o.val * 4096 + k.val) / 4096 = o.val; omega
    | ⟨1, _⟩ => show (o.val * 4096 + k.val) / 128 % 32 = k.val / 128; omega
    | ⟨2, _⟩ => show (o.val * 4096 + k.val) % 128 = k.val % 128; omega
  rw [hl, val_main_v1_apply, hr, dequant_apply (F := Ideal) x1 x2 o (grp k) (pos k) (h _), weight_of_lt x1 x2 o k (h _)]

end Cert.Dequant.Ref

end
-- ==== Proof.RefStages.lean ====
/- The reference program's run, read back stretch by stretch: the 27 host operations are cut into four
   consecutive stretches; each stretch is read over an arbitrary starting valuation, so that every
   step sees only a short term; the stretches are then chained, and the result is the reference's value
   of its four arguments, the arguments themselves left as they were. -/
import proofs.«429564_j50165218017637_1_alg».proof.Proof.RefRun
import proofs.«429564_j50165218017637_1_alg».proof.Proof.RefRead

noncomputable section

namespace Cert.Dequant.Ref

open Cert.ReferenceIdeal Cert.ReferenceIdeal.Gen Idealize.ShloMosaic Idealize.ShloMosaic.TcCoe Idealize.SL.Sem Idealize.ShloMosaic.StableHlo
open Cert.ReferenceIdeal.ReadCopy

variable {F : FTy → Type} [FloatOps F]

/-- The index normalized (a negative index wraps by sixteen) and reshaped to a trailing unit axis. -/
abbrev opsA : List (HloOp τ sig (Elt F)) :=
  [ TRef.nullary (TRef.of (T := ⟨S_, .i32⟩) main_call0_c) (constantI S_ 32 0#32),
    TRef.unary (TRef.of (T := ⟨S_, .i32⟩) main_call0_c) (TRef.of (T := ⟨S4096x32x128, .i32⟩) main_call0_v0) (broadcastInDim S4096x32x128 ![] bcast_S_S4096x32x128),
    TRef.binary (TRef.of (T := ⟨S4096x32x128, .i32⟩) main_arg2) (TRef.of (T := ⟨S4096x32x128, .i32⟩) main_call0_v0) (TRef.of (T := ⟨S4096x32x128, .i1⟩) main_call0_v1) (cmpi .slt),
    TRef.nullary (TRef.of (T := ⟨S_, .i32⟩) main_call0_c_0) (constantI S_ 32 16#32),
    TRef.unary (TRef.of (T := ⟨S_, .i32⟩) main_call0_c_0) (TRef.of (T := ⟨S4096x32x128, .i32⟩) main_call0_v2) (broadcastInDim S4096x32x128 ![] bcast_S_S4096x32x128),
    TRef.binary (TRef.of (T := ⟨S4096x32x128, .i32⟩) main_arg2) (TRef.of (T := ⟨S4096x32x128, .i32⟩) main_call0_v2) (TRef.of (T := ⟨S4096x32x128, .i32⟩) main_call0_v3) addi,
    TRef.ternary (TRef.of (T := ⟨S4096x32x128, .i1⟩) main_call0_v1) (TRef.of (T := ⟨S4096x32x128, .i32⟩) main_call0_v3) (TRef.of (T := ⟨S4096x32x128, .i32⟩) main_arg2) (TRef.of (T := ⟨S4096x32x128, .i32⟩) main_call0_v4) select,
    TRef.reshape (TRef.of (T := ⟨S4096x32x128, .i32⟩) main_call0_v4) (TRef.of (T := ⟨S4096x32x128x1, .i32⟩) main_call0_v5) rfl shapeCasts_S4096x32x128_S4096x32x128x1 ]

/-- After the first stretch the reshaped index buffer holds the normalized index of the index argument. -/
theorem A_v5 (W : Valuation τ sig (Elt F)) :
    after (opsA (F := F)) W (Proc.devRef .tc main_call0_v5) = val_main_call0_v5 (F := F) (W (Proc.devRef .tc main_arg2) : (⟨S4096x32x128, .i32⟩ : BufTy).Contents (Elt F)) := by
  after_results
  rfl
theorem A_main_arg0 (W : Valuation τ sig (Elt F)) :
    after (opsA (F := F)) W (Proc.devRef .tc main_arg0) = W (Proc.devRef .tc main_arg0) := by
  after_results <;> rfl
theorem A_main_arg1 (W : Valuation τ sig (Elt F)) :
    after (opsA (F := F)) W (Proc.devRef .tc main_arg1) = W (Proc.devRef .tc main_arg1) := by
  after_results <;> rfl
theorem A_main_arg3 (W : Valuation τ sig (Elt F)) :
    after (opsA (F := F)) W (Proc.devRef .tc main_arg3) = W (Proc.devRef .tc main_arg3) := by
  after_results <;> rfl
/-- The range test of the normalized index (zero up to fifteen), combined over the trailing unit axis by `g`
    (the program's `g` is the fold of the conjunction over that axis; the stretch is read for any `g`). -/
abbrev opsBg (g : (⟨S4096x32x128x1, .i1⟩ : BufTy).Contents (Elt F) → (⟨S_, .i1⟩ : BufTy).Contents (Elt F) → (⟨S4096x32x128, .i1⟩ : BufTy).Contents (Elt F)) :
    List (HloOp τ sig (Elt F)) :=
  [ TRef.nullary (TRef.of (T := ⟨S1, .i32⟩) main_call0_c_1) (constantI S1 32 15#32),
    TRef.nullary (TRef.of (T := ⟨S_, .i32⟩) main_call0_c_2) (constantI S_ 32 0#32),
    TRef.unary (TRef.of (T := ⟨S_, .i32⟩) main_call0_c_2) (TRef.of (T := ⟨S4096x32x128x1, .i32⟩) main_call0_v6) (broadcastInDim S4096x32x128x1 ![] bcast_S_S4096x32x128x1),
    TRef.binary (TRef.of (T := ⟨S4096x32x128x1, .i32⟩) main_call0_v5) (TRef.of (T := ⟨S4096x32x128x1, .i32⟩) main_call0_v6) (TRef.of (T := ⟨S4096x32x128x1, .i1⟩) main_call0_v7) (cmpi .sge),
    TRef.unary (TRef.of (T := ⟨S1, .i32⟩) main_call0_c_1) (TRef.of (T := ⟨S1x1x1x1, .i32⟩) main_call0_v8) (broadcastInDim S1x1x1x1 ![3] bcast_S1_S1x1x1x1_3),
    TRef.unary (TRef.of (T := ⟨S1x1x1x1, .i32⟩) main_call0_v8) (TRef.of (T := ⟨S4096x32x128x1, .i32⟩) main_call0_v9) (broadcastInDim S4096x32x128x1 ![0, 1, 2, 3] bcast_S1x1x1x1_S4096x32x128x1_0_1_2_3),
    TRef.binary (TRef.of (T := ⟨S4096x32x128x1, .i32⟩) main_call0_v5) (TRef.of (T := ⟨S4096x32x128x1, .i32⟩) main_call0_v9) (TRef.of (T := ⟨S4096x32x128x1, .i1⟩) main_call0_v10) (cmpi .sle),
    TRef.binary (TRef.of (T := ⟨S4096x32x128x1, .i1⟩) main_call0_v7) (TRef.of (T := ⟨S4096x32x128x1, .i1⟩) main_call0_v10) (TRef.of (T := ⟨S4096x32x128x1, .i1⟩) main_call0_v11) andi,
    TRef.nullary (TRef.of (T := ⟨S_, .i1⟩) main_call0_c_3) (constantI S_ 1 1#1),
    TRef.binary (TRef.of (T := ⟨S4096x32x128x1, .i1⟩) main_call0_v11) (TRef.of (T := ⟨S_, .i1⟩) main_call0_c_3) (TRef.of (T := ⟨S4096x32x128, .i1⟩) main_call0_v12) g ]

/-- The second stretch of the program: `g` is the fold of the conjunction over the trailing unit axis, from the constant true. -/
abbrev opsB : List (HloOp τ sig (Elt F)) :=
  opsBg (fun x v => Host.reduce IntOp.andi x v reducesTo_S4096x32x128x1_S4096x32x128_d3 h_S_)

/-- After the second stretch, for any combining `g`, the mask buffer holds `g` of the two range tests' conjunction
    (of whatever the reshaped index buffer held) and the constant true. -/
theorem Bg_v12 (g : (⟨S4096x32x128x1, .i1⟩ : BufTy).Contents (Elt F) → (⟨S_, .i1⟩ : BufTy).Contents (Elt F) → (⟨S4096x32x128, .i1⟩ : BufTy).Contents (Elt F))
    (W : Valuation τ sig (Elt F)) :
    after (opsBg (F := F) g) W (Proc.devRef .tc main_call0_v12)
      = g (andi (cmpi .sge (W (Proc.devRef .tc main_call0_v5) : (⟨S4096x32x128x1, .i32⟩ : BufTy).Contents (Elt F)) (val_main_call0_v6 (F := F)))
                (cmpi .sle (W (Proc.devRef .tc main_call0_v5) : (⟨S4096x32x128x1, .i32⟩ : BufTy).Contents (Elt F)) (val_main_call0_v9 (F := F))))
          (val_main_call0_c_3 (F := F)) := by
  after_results
  rfl

/-- The same at the program's `g`. -/
theorem B_v12 (W : Valuation τ sig (Elt F)) :
    after (opsB (F := F)) W (Proc.devRef .tc main_call0_v12)
      = Host.reduce IntOp.andi
          (andi (cmpi .sge (W (Proc.devRef .tc main_call0_v5) : (⟨S4096x32x128x1, .i32⟩ : BufTy).Contents (Elt F)) (val_main_call0_v6 (F := F)))
                (cmpi .sle (W (Proc.devRef .tc main_call0_v5) : (⟨S4096x32x128x1, .i32⟩ : BufTy).Contents (Elt F)) (val_main_call0_v9 (F := F))))
          (val_main_call0_c_3 (F := F)) reducesTo_S4096x32x128x1_S4096x32x128_d3 h_S_ :=
  Bg_v12 _ W
theorem B_main_call0_v5 (W : Valuation τ sig (Elt F)) :
    after (opsB (F := F)) W (Proc.devRef .tc main_call0_v5) = W (Proc.devRef .tc main_call0_v5) := by
  after_results <;> rfl
theorem B_main_arg0 (W : Valuation τ sig (Elt F)) :
    after (opsB (F := F)) W (Proc.devRef .tc main_arg0) = W (Proc.devRef .tc main_arg0) := by
  after_results <;> rfl
theorem B_main_arg1 (W : Valuation τ sig (Elt F)) :
    after (opsB (F := F)) W (Proc.devRef .tc main_arg1) = W (Proc.devRef .tc main_arg1) := by
  after_results <;> rfl
theorem B_main_arg3 (W : Valuation τ sig (Elt F)) :
    after (opsB (F := F)) W (Proc.devRef .tc main_arg3) = W (Proc.devRef .tc main_arg3) := by
  after_results <;> rfl
/-- The gather along the last axis, and the fill where the index is out of range. -/
abbrev opsC : List (HloOp τ sig (Elt F)) :=
  [ TRef.binary (TRef.of (T := ⟨S4096x32x16, .f32⟩) main_arg1) (TRef.of (T := ⟨S4096x32x128x1, .i32⟩) main_call0_v5) (TRef.of (T := ⟨S4096x32x128, .f32⟩) main_call0_v13) (fun x i => Host.gather gather_S4096x32x16_S4096x32x128x1_S4096x32x128_n_2_01_01_2_3_111 x i),
    TRef.nullary (TRef.of (T := ⟨S_, .f32⟩) main_call0_cst) (constant S_ .f32 0x7FC00000#32),
    TRef.unary (TRef.of (T := ⟨S_, .f32⟩) main_call0_cst) (TRef.of (T := ⟨S4096x32x128, .f32⟩) main_call0_v14) (broadcastInDim S4096x32x128 ![] bcast_S_S4096x32x128),
    TRef.ternary (TRef.of (T := ⟨S4096x32x128, .i1⟩) main_call0_v12) (TRef.of (T := ⟨S4096x32x128, .f32⟩) main_call0_v13) (TRef.of (T := ⟨S4096x32x128, .f32⟩) main_call0_v14) (TRef.of (T := ⟨S4096x32x128, .f32⟩) main_v0) select ]

/-- After the third stretch the call's result holds the gathered value where the mask holds and the fill elsewhere. -/
theorem C_v0 (W : Valuation τ sig (Elt F)) :
    after (opsC (F := F)) W (Proc.devRef .tc main_v0)
      = select (W (Proc.devRef .tc main_call0_v12) : (⟨S4096x32x128, .i1⟩ : BufTy).Contents (Elt F))
          (Host.gather gather_S4096x32x16_S4096x32x128x1_S4096x32x128_n_2_01_01_2_3_111 (W (Proc.devRef .tc main_arg1) : (⟨S4096x32x16, .f32⟩ : BufTy).Contents (Elt F)) (W (Proc.devRef .tc main_call0_v5) : (⟨S4096x32x128x1, .i32⟩ : BufTy).Contents (Elt F)))
          (val_main_call0_v14 (F := F)) := by
  after_results
  rfl
theorem C_main_arg0 (W : Valuation τ sig (Elt F)) :
    after (opsC (F := F)) W (Proc.devRef .tc main_arg0) = W (Proc.devRef .tc main_arg0) := by
  after_results <;> rfl
theorem C_main_arg3 (W : Valuation τ sig (Elt F)) :
    after (opsC (F := F)) W (Proc.devRef .tc main_arg3) = W (Proc.devRef .tc main_arg3) := by
  after_results <;> rfl
/-- The gathered table as a matrix, the contraction with the activations, and the bias added. -/
abbrev opsD : List (HloOp τ sig (Elt F)) :=
  [ reshape main_v0 main_v1 rfl shapeCasts_S4096x32x128_S4096x4096,
    binary main_arg0 main_v1 main_v2 ((fun l r => Host.dotGeneral dot_S2x1024x4096_S4096x4096_S2x1024x4096_2_1_01_0_n_n none l r) : (⟨S2x1024x4096, .f32⟩ : BufTy).Contents (Elt F) → (⟨S4096x4096, .f32⟩ : BufTy).Contents (Elt F) → (⟨S2x1024x4096, .f32⟩ : BufTy).Contents (Elt F)),
    unary main_arg3 main_v3 (broadcastInDim S1x1x4096 ![2] bcast_S4096_S1x1x4096_2 : (⟨S4096, .f32⟩ : BufTy).Contents (Elt F) → (⟨S1x1x4096, .f32⟩ : BufTy).Contents (Elt F)),
    unary main_v3 main_v4 (broadcastInDim S2x1024x4096 ![0, 1, 2] bcast_S1x1x4096_S2x1024x4096_0_1_2 : (⟨S1x1x4096, .f32⟩ : BufTy).Contents (Elt F) → (⟨S2x1024x4096, .f32⟩ : BufTy).Contents (Elt F)),
    binary main_v2 main_v4 main_v5 (addf : (⟨S2x1024x4096, .f32⟩ : BufTy).Contents (Elt F) → (⟨S2x1024x4096, .f32⟩ : BufTy).Contents (Elt F) → (⟨S2x1024x4096, .f32⟩ : BufTy).Contents (Elt F)) ]

/-- After the last stretch the result holds the contraction of the activations with the reshaped table, plus the broadcast bias. -/
theorem D_v5 (W : Valuation τ sig (Elt F)) :
    after (opsD (F := F)) W (Proc.devRef .tc main_v5)
      = addf (Host.dotGeneral dot_S2x1024x4096_S4096x4096_S2x1024x4096_2_1_01_0_n_n none (W (Proc.devRef .tc main_arg0) : (⟨S2x1024x4096, .f32⟩ : BufTy).Contents (Elt F))
                (shapeCast _ (W (Proc.devRef .tc main_v0) : (⟨S4096x32x128, .f32⟩ : BufTy).Contents (Elt F)) shapeCasts_S4096x32x128_S4096x4096))
             (val_main_v4 (F := F) (W (Proc.devRef .tc main_arg3) : (⟨S4096, .f32⟩ : BufTy).Contents (Elt F))) := by
  after_results
  rfl

/-- The four stretches one after the other: the result buffer holds the reference's value of the four arguments. -/
theorem read_v5_stages (V : Valuation τ sig (Elt F)) :
    after (opsA (F := F) ++ (opsB ++ (opsC ++ opsD))) V (Proc.devRef .tc main_v5)
      = val_main_v5 (F := F) (V (Proc.devRef .tc main_arg0)) (V (Proc.devRef .tc main_arg1)) (V (Proc.devRef .tc main_arg2)) (V (Proc.devRef .tc main_arg3)) := by
  rw [StableHlo.after_append, StableHlo.after_append, StableHlo.after_append]
  rw [D_v5]
  rw [C_v0, C_main_arg0, C_main_arg3]
  rw [B_v12, B_main_call0_v5, B_main_arg0, B_main_arg1, B_main_arg3]
  rw [A_v5, A_main_arg0, A_main_arg1, A_main_arg3]
  rfl

/-- The program's operation list is the four stretches in a row. -/
theorem ops_split : RunCopy.ops (F := F) = opsA ++ (opsB ++ (opsC ++ opsD)) := rfl

/-- The result buffer after the whole program. -/
theorem read_v5 (V : Valuation τ sig (Elt F)) :
    after (RunCopy.ops (F := F)) V (Proc.devRef .tc main_v5)
      = val_main_v5 (F := F) (V (Proc.devRef .tc main_arg0)) (V (Proc.devRef .tc main_arg1)) (V (Proc.devRef .tc main_arg2)) (V (Proc.devRef .tc main_arg3)) := by
  rw [ops_split]
  exact read_v5_stages V

/-- No operation writes an argument. -/
theorem read_arg0 (V : Valuation τ sig (Elt F)) :
    after (RunCopy.ops (F := F)) V (Proc.devRef .tc main_arg0) = V (Proc.devRef .tc main_arg0) := by
  after_results <;> rfl
theorem read_arg1 (V : Valuation τ sig (Elt F)) :
    after (RunCopy.ops (F := F)) V (Proc.devRef .tc main_arg1) = V (Proc.devRef .tc main_arg1) := by
  after_results <;> rfl
theorem read_arg2 (V : Valuation τ sig (Elt F)) :
    after (RunCopy.ops (F := F)) V (Proc.devRef .tc main_arg2) = V (Proc.devRef .tc main_arg2) := by
  after_results <;> rfl
theorem read_arg3 (V : Valuation τ sig (Elt F)) :
    after (RunCopy.ops (F := F)) V (Proc.devRef .tc main_arg3) = V (Proc.devRef .tc main_arg3) := by
  after_results <;> rfl

/-- On every device, from any memory with zero counters: every weakly fair execution of the reference terminates
    with the result buffer at the reference's value of the four arguments' launch contents, the arguments unchanged. -/
theorem ref_run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v5) = Cert.ReferenceIdeal.ReadCopy.val_main_v5 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v5).trans (read_v5 _),
      (h c main_arg0).trans (read_arg0 _),
      (h c main_arg1).trans (read_arg1 _),
      (h c main_arg2).trans (read_arg2 _),
      (h c main_arg3).trans (read_arg3 _)⟩)
    (RunCopy.run_fold m ρ)

end Cert.Dequant.Ref

end
-- ==== Proof.lean ====
/-
  The certificate: a linear layer over a codebook-compressed weight matrix, the kernel against its jnp reference.

  Both programs compute `out[b, s, o] = ∑ₖ x[b, s, k] · W[o, k] + bias[o]`, where the 4096 × 4096 weight `W` is stored as
  4-bit codes into per-row, per-group codebooks of sixteen entries: `W[o, k]` is the entry of the codebook of row `o` and
  group `k / 128` at the code stored for column `k % 128` (Proof/Spec.lean). The reference looks the entry up (a gather
  along the codebook axis); the kernel offers the sixteen entries one after the other and keeps the one whose number
  equals the code (Proof/Pick.lean), once per output-feature tile, into a buffer it keeps over the tile's eight grid
  points (Proof/Carried.lean). The two agree where every code is a codebook position, `0 ≤ code < 16`, which the
  precondition states; no law of arithmetic beyond reordering a finite sum is used, so finiteness of the float inputs
  plays no part in the value claim.

  The frames of the two kernel programs are the generated ones; the reference's frame is its run with the result dropped;
  the ideal pass rewrote nothing, so `preserves` is trivial; `algebraic` puts the kernel's run (Proof/KernelValue.lean) and
  the reference's (Proof/RefStages.lean, Proof/RefValue.lean) side by side at the specification's function.
-/
import proofs.«429564_j50165218017637_1_alg».proof.Defs
import proofs.«429564_j50165218017637_1_alg».proof.Proof.Gen.Kernel
import proofs.«429564_j50165218017637_1_alg».proof.Proof.Gen.Kernel.Skeleton
import proofs.«429564_j50165218017637_1_alg».proof.Proof.Gen.Kernel.Launch
import proofs.«429564_j50165218017637_1_alg».proof.Proof.Gen.Kernel.Points
import proofs.«429564_j50165218017637_1_alg».proof.Proof.Gen.Kernel.Frame
import proofs.«429564_j50165218017637_1_alg».proof.Proof.Gen.KernelIdeal
import proofs.«429564_j50165218017637_1_alg».proof.Proof.Gen.KernelIdeal.Skeleton
import proofs.«429564_j50165218017637_1_alg».proof.Proof.Gen.KernelIdeal.Launch
import proofs.«429564_j50165218017637_1_alg».proof.Proof.Gen.KernelIdeal.Points
import proofs.«429564_j50165218017637_1_alg».proof.Proof.Gen.KernelIdeal.Frame
import proofs.«429564_j50165218017637_1_alg».proof.Proof.Gen.ReferenceIdeal
import proofs.«429564_j50165218017637_1_alg».proof.Proof.Gen.Pre_finite_inputs
import proofs.«429564_j50165218017637_1_alg».proof.Proof.KernelValue
import proofs.«429564_j50165218017637_1_alg».proof.Proof.RefLemmas
import proofs.«429564_j50165218017637_1_alg».proof.Proof.RefValue
import proofs.«429564_j50165218017637_1_alg».proof.Proof.RefStages
import Idealize.ShloMosaic.Adequacy
import Idealize.ShloMosaic.Init

noncomputable section

namespace Cert.Proof

open Idealize.ShloMosaic Idealize.SL.Sem Cert.Dequant

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.Dequant.Ref.ref_run (F := Ideal) m ρ)

/-- The ideal pass rewrote nothing. -/
theorem preserves : Cert.preserves_Kernel_KernelIdeal := trivial

/-- Under the precondition every code is a codebook position; there the kernel's result array ends at the specification's
    affine map of its arguments and the reference's, run from arguments that agree, at the same. -/
theorem algebraic : Cert.algebraic_KernelIdeal_ReferenceIdeal := by
  intro m ρ m' ρ' hpre hagree
  have hok : ∀ c : Dev Cert.KernelIdeal.nD,
      CodesOk (m ((c.tc : Thread Cert.KernelIdeal.nD Cert.KernelIdeal.τ).loc Cert.KernelIdeal.main_arg2)) :=
    fun c => Cert.Dequant.Ref.codesOk_of_pre _ _ _ _ (hpre c)
  refine ⟨_, Cert.Dequant.Kernel.run m ρ hok, ?_⟩
  refine (θ_run Cert.ReferenceIdeal.defs _ _).mono (fun _ h c => ⟨(h c).1.trans ?_, (h c).2⟩)
    (Cert.Dequant.Ref.ref_run (F := Ideal) m' ρ')
  rw [(hagree c).1, (hagree c).2.1, (hagree c).2.2.1, (hagree c).2.2.2]
  exact Cert.Dequant.Ref.ref_eq _ _ _ _ (hok c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
